-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S3x200000 : Shape := ⟨2, ![3, 200000]⟩
abbrev S256x128 : Shape := ⟨2, ![256, 128]⟩
abbrev S128 : Shape := ⟨1, ![128]⟩
abbrev S128x128 : Shape := ⟨2, ![128, 128]⟩
abbrev S384x1 : Shape := ⟨2, ![384, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x1 : S_.BroadcastsInDim S384x1 (![] : Fin 0 → Fin S384x1.rank)
  reducesTo_S384x1_S_d0_1 : S384x1.ReducesTo [0, 1] S_
  bcast_S_S1 : S_.BroadcastsInDim S1 (![] : Fin 0 → Fin S1.rank)
  reducesTo_S1_S_d0 : S1.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![1, 0] · slices_S2x1600000_S1x1600000_1_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_c_13 : IVec S_ 1 := constantI S_ 1 1#1
  let main_v38 : IVec S_ 1 := (fun x v => Host.reduce IntOp.andi x v reducesTo_S1600000_S_d0 h_S_) main_v37 main_c_13
  let main_v39 : IVec S_ 1 := andi main_v33 main_v38
  main_v39

def fn_part1 {F : FTy → Type} [FloatOps F] (main_arg1 : IVec S2x1600000 32) (main_arg6 : FVec F S128 .f32) (main_arg7 : FVec F S384x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x1 .f32 := Host.absf main_arg7
  let main_cst_8 : FVec F S_ .f32 := constant S_ .f32 0x7F800000#32
  let main_v25 : FVec F S384x1 .f32 := broadcastInDim S384x1 ![] bcast_S_S384x1 main_cst_8
  let main_v26 : IVec S384x1 1 := cmpf .olt main_v24 main_v25
  let main_c_9 : IVec S_ 1 := constantI S_ 1 1#1
  let main_v27 : IVec S_ 1 := (fun x v => Host.reduce IntOp.andi x v reducesTo_S384x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S50000x256 .f32) (main_arg1 : IVec S2x1600000 32) (main_arg2 : IVec S3x200000 32) (main_arg3 : FVec F S256x128 .f32) (main_arg4 : FVec F S128 .f32) (main_arg5 : FVec F S128x128 .f32) (main_arg6 : FVec F S128 .f32) (main_arg7 : FVec F S384x1 .f32) (main_arg8 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_v13 main_v16
-- ==== Kernel.lean ====
abbrev S50000x256 : Shape := ⟨2, ![50000, 256]⟩
abbrev S2x1600000 : Shape := ⟨2, ![2, 1600000]⟩
abbrev S3x200000 : Shape := ⟨2, ![3, 200000]⟩
abbrev S256x128 : Shape := ⟨2, ![256, 128]⟩
abbrev S128 : Shape := ⟨1, ![128]⟩
abbrev S128x128 : Shape := ⟨2, ![128, 128]⟩
abbrev S384x1 : Shape := ⟨2, ![384, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x128 : Shape := ⟨2, ![50000, 128]⟩
abbrev S2000x256 : Shape := ⟨2, ![2000, 256]⟩
abbrev S2000x128 : Shape := ⟨2, ![2000, 128]⟩
abbrev S1600000x128 : Shape := ⟨2, ![1600000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x384 : Shape := ⟨2, ![200000, 384]⟩
abbrev S384x128 : Shape := ⟨2, ![384, 128]⟩
abbrev S2000x384 : Shape := ⟨2, ![2000, 384]⟩

abbrev nBuf : Space → Nat
  | .hbm => 156
  | .vmem => 15
  | .smem => 0
  | _ => 0

abbrev hbmTy0_0 (i : Nat) : BufTy := match i % 128 with
  | 0 => ⟨S50000x256, .f32⟩
  | 1 => ⟨S2x1600000, .i32⟩
  | 2 => ⟨S3x200000, .i32⟩
  | 3 => ⟨S256x128, .f32⟩
  | 4 => ⟨S128, .f32⟩
  | 5 => ⟨S128x128, .f32⟩
  | 6 => ⟨S128, .f32⟩
  | 7 => ⟨S384x1, .f32⟩
  | 8 => ⟨S1, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S50000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S_, .f32⟩
  | 24 => ⟨S1600000, .f32⟩
  | 25 => ⟨S50000, .f32⟩
  | 26 => ⟨S_, .f32⟩
  | 27 => ⟨S50000, .f32⟩
  | 28 => ⟨S50000, .f32⟩
  | 29 => ⟨S50000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S1600000x1, .f32⟩
  | 50 => ⟨S50000, .f32⟩
  | 51 => ⟨S50000x1, .f32⟩
  | 52 => ⟨S50000x128, .f32⟩
  | 53 => ⟨S_, .f32⟩
  | 54 => ⟨S50000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x128, .f32⟩
  | 65 => ⟨S1600000x128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S50000x128, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S_, .f32⟩
  | 86 => ⟨S50000x128, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x128, .f32⟩
  | 96 => ⟨S1600000x128, .f32⟩
  | 97 => ⟨S1600000x128, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S50000x128, .f32⟩
  | 107 => ⟨S50000x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S1x200000, .i32⟩
  | 114 => ⟨S200000, .i32⟩
  | 115 => ⟨S_, .i32⟩
  | 116 => ⟨S200000, .i32⟩
  | 117 => ⟨S200000, .i1⟩
  | 118 => ⟨S_, .i32⟩
  | 119 => ⟨S200000, .i32⟩
  | 120 => ⟨S200000, .i32⟩
  | 121 => ⟨S200000, .i32⟩
  | 122 => ⟨S200000x1, .i32⟩
  | 123 => ⟨S200000x128, .f32⟩
  | 124 => ⟨S1x200000, .i32⟩
  | 125 => ⟨S200000, .i32⟩
  | 126 => ⟨S_, .i32⟩
  | 127 => ⟨S200000, .i32⟩
  | _ => ⟨S50000x256, .f32⟩

abbrev hbmTy0_1 (i : Nat) : BufTy := match i % 128 with
  | 0 => ⟨S200000, .i1⟩
  | 1 => ⟨S_, .i32⟩
  | 2 => ⟨S200000, .i32⟩
  | 3 => ⟨S200000, .i32⟩
  | 4 => ⟨S200000, .i32⟩
  | 5 => ⟨S200000x1, .i32⟩
  | 6 => ⟨S200000x128, .f32⟩
  | 7 => ⟨S1x200000, .i32⟩
  | 8 => ⟨S200000, .i32⟩
  | 9 => ⟨S_, .i32⟩
  | 10 => ⟨S200000, .i32⟩
  | 11 => ⟨S200000, .i1⟩
  | 12 => ⟨S_, .i32⟩
  | 13 => ⟨S200000, .i32⟩
  | 14 => ⟨S200000, .i32⟩
  | 15 => ⟨S200000, .i32⟩
  | 16 => ⟨S200000x1, .i32⟩
  | 17 => ⟨S200000x128, .f32⟩
  | 18 => ⟨S200000x384, .f32⟩
  | 19 => ⟨S_, .i32⟩
  | 20 => ⟨S_, .f32⟩
  | 21 => ⟨S384x128, .f32⟩
  | 22 => ⟨S200000x128, .f32⟩
  | 23 => ⟨S200000x1, .f32⟩
  | 24 => ⟨S200000, .f32⟩
  | 25 => ⟨S_, .f32⟩
  | 26 => ⟨S200000, .f32⟩
  | 27 => ⟨S200000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x384, .f32⟩
  | .local _ .vmem, ⟨11, _⟩ => ⟨S2000x384, .f32⟩
  | .local _ .vmem, ⟨12, _⟩ => ⟨S384x128, .f32⟩
  | .local _ .vmem, ⟨13, _⟩ => ⟨S2000x128, .f32⟩
  | .local _ .vmem, ⟨14, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_10 : Ref sig .tc := ⟨.hbm, 66, rfl⟩
abbrev main_v45 : Ref sig .tc := ⟨.hbm, 67, rfl⟩
abbrev main_v46 : Ref sig .tc := ⟨.hbm, 68, rfl⟩
abbrev main_c_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call0_cst : Ref sig .tc := ⟨.hbm, 81, rfl⟩
abbrev main_call0_v0 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_15 : Ref sig .tc := ⟨.hbm, 98, rfl⟩
abbrev main_v70 : Ref sig .tc := ⟨.hbm, 99, rfl⟩
abbrev main_v71 : Ref sig .tc := ⟨.hbm, 100, rfl⟩
abbrev main_c_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_17 : Ref sig .tc := ⟨.hbm, 115, rfl⟩
abbrev main_v85 : Ref sig .tc := ⟨.hbm, 116, rfl⟩
abbrev main_v86 : Ref sig .tc := ⟨.hbm, 117, rfl⟩
abbrev main_c_18 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_19 : Ref sig .tc := ⟨.hbm, 126, rfl⟩
abbrev main_v94 : Ref sig .tc := ⟨.hbm, 127, rfl⟩
abbrev main_v95 : Ref sig .tc := ⟨.hbm, 128, rfl⟩
abbrev main_c_20 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_c_21 : Ref sig .tc := ⟨.hbm, 137, rfl⟩
abbrev main_v103 : Ref sig .tc := ⟨.hbm, 138, rfl⟩
abbrev main_v104 : Ref sig .tc := ⟨.hbm, 139, rfl⟩
abbrev main_c_22 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_c_23 : Ref sig .tc := ⟨.hbm, 147, rfl⟩
abbrev main_call1_v0 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S384x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S1600000x1_S1600000x128_0_1 : S1600000x1.BroadcastsInDim S1600000x128 (![0, 1] : Fin 2 → Fin S1600000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  slices_S3x200000_S1x200000_0_0 : S3x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S3x200000_S1x200000_1_0 : S3x200000.Slices ![1, 0] S1x200000
  slices_S3x200000_S1x200000_2_0 : S3x200000.Slices ![2, 0] S1x200000
  concatenates_S200000x128_S200000x128_S200000x128_S200000x384_d1 : Shape.Concatenates [S200000x128, S200000x128, S200000x128] S200000x384 1
  pads_S384x1_S384x128_000_01270 : S384x1.Pads (![0, 0] : Fin 2 → Nat) ![0, 127] ![0, 0] S384x128
  h_S_ : 0 < S_.numel
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  slices_S200000x128_S200000x1_0_0 : S200000x128.Slices ![0, 0] S200000x1
  shapeCasts_S200000x1_S200000 : S200000x1.ShapeCasts S200000
  shapeCasts_S1_S_ : S1.ShapeCasts S_
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S2000x256_S256x128_S2000x128_1_0_0_1_n_n_wf : DotDims.WF S2000x256 S256x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x128_S2000x128_1_0_0_1_n_n_wf : DotDims.WF S2000x128 S128x128 S2000x128 [1] [0] [0] [1] [] []
  gather_S50000x128_S200000x1_S200000x128_1_0_n_n_0_1_1128_wf : GatherDims.WF S50000x128 S200000x1 S200000x128 [1] [0] [] [0] [] 1 ![1, 128]
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x384.size a ≤ S200000x384.size a
  hwx2_0 : ∀ i : grid2.Coords, EltTy.bits .f32 = 32 ∨ (Rect.block (s := S200000x384) S2000x384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S384x128.size a ≤ S384x128.size a
  hwx2_1 : ∀ i : grid2.Coords, EltTy.bits .f32 = 32 ∨ (Rect.block (s := S384x128) S384x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S200000x128.size a
  hwx2_2 : ∀ i : grid2.Coords, EltTy.bits .f32 = 32 ∨ (Rect.block (s := S200000x128) S2000x128.size (cc2_transform_2 i) (hinb2_2 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v58) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v110) S2000x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v111) S384x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v112) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S3x200000 : Shape := ⟨2, ![3, 200000]⟩
abbrev S256x128 : Shape := ⟨2, ![256, 128]⟩
abbrev S128 : Shape := ⟨1, ![128]⟩
abbrev S128x128 : Shape := ⟨2, ![128, 128]⟩
abbrev S384x1 : Shape := ⟨2, ![384, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x128 : Shape := ⟨2, ![50000, 128]⟩
abbrev S1600000x128 : Shape := ⟨2, ![1600000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x384 : Shape := ⟨2, ![200000, 384]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S50000x256, .f32⟩
  | 1 => ⟨S2x1600000, .i32⟩
  | 2 => ⟨S3x200000, .i32⟩
  | 3 => ⟨S256x128, .f32⟩
  | 4 => ⟨S128, .f32⟩
  | 5 => ⟨S128x128, .f32⟩
  | 6 => ⟨S128, .f32⟩
  | 7 => ⟨S384x1, .f32⟩
  | 8 => ⟨S1, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S50000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S_, .f32⟩
  | 24 => ⟨S1600000, .f32⟩
  | 25 => ⟨S50000, .f32⟩
  | 26 => ⟨S_, .f32⟩
  | 27 => ⟨S50000, .f32⟩
  | 28 => ⟨S50000, .f32⟩
  | 29 => ⟨S50000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S1600000x1, .f32⟩
  | 50 => ⟨S50000, .f32⟩
  | 51 => ⟨S50000x1, .f32⟩
  | 52 => ⟨S50000x128, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S1600000x128, .f32⟩
  | 63 => ⟨S1600000x128, .f32⟩
  | 64 => ⟨S_, .f32⟩
  | 65 => ⟨S50000x128, .f32⟩
  | 66 => ⟨S1600000x1, .i32⟩
  | 67 => ⟨S50000x128, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x128, .f32⟩
  | 87 => ⟨S1600000x128, .f32⟩
  | 88 => ⟨S1600000x128, .f32⟩
  | 89 => ⟨S_, .f32⟩
  | 90 => ⟨S50000x128, .f32⟩
  | 91 => ⟨S1600000x1, .i32⟩
  | 92 => ⟨S50000x128, .f32⟩
  | 93 => ⟨S50000x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S1x200000, .i32⟩
  | 100 => ⟨S200000, .i32⟩
  | 101 => ⟨S_, .i32⟩
  | 102 => ⟨S200000, .i32⟩
  | 103 => ⟨S200000, .i1⟩
  | 104 => ⟨S_, .i32⟩
  | 105 => ⟨S200000, .i32⟩
  | 106 => ⟨S200000, .i32⟩
  | 107 => ⟨S200000, .i32⟩
  | 108 => ⟨S200000x1, .i32⟩
  | 109 => ⟨S200000x128, .f32⟩
  | 110 => ⟨S1x200000, .i32⟩
  | 111 => ⟨S200000, .i32⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S200000x1, .i32⟩
  | 120 => ⟨S200000x128, .f32⟩
  | 121 => ⟨S1x200000, .i32⟩
  | 122 => ⟨S200000, .i32⟩
  | 123 => ⟨S_, .i32⟩
  | 124 => ⟨S200000, .i32⟩
  | 125 => ⟨S200000, .i1⟩
  | 126 => ⟨S_, .i32⟩
  | 127 => ⟨S200000, .i32⟩
  | _ => ⟨S50000x256, .f32⟩

abbrev hbmTy0_1 (i : Nat) : BufTy := match i % 128 with
  | 0 => ⟨S200000, .i32⟩
  | 1 => ⟨S200000, .i32⟩
  | 2 => ⟨S200000x1, .i32⟩
  | 3 => ⟨S200000x128, .f32⟩
  | 4 => ⟨S200000x384, .f32⟩
  | 5 => ⟨S200000x1, .f32⟩
  | 6 => ⟨S1x1, .f32⟩
  | 7 => ⟨S200000x1, .f32⟩
  | 8 => ⟨S200000x1, .f32⟩
  | 9 => ⟨S200000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call0_cst : Ref sig .tc := ⟨.hbm, 74, rfl⟩
abbrev main_call0_v0 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_13 : Ref sig .tc := ⟨.hbm, 101, rfl⟩
abbrev main_v75 : Ref sig .tc := ⟨.hbm, 102, rfl⟩
abbrev main_v76 : Ref sig .tc := ⟨.hbm, 103, rfl⟩
abbrev main_c_14 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_15 : Ref sig .tc := ⟨.hbm, 112, rfl⟩
abbrev main_v84 : Ref sig .tc := ⟨.hbm, 113, rfl⟩
abbrev main_v85 : Ref sig .tc := ⟨.hbm, 114, rfl⟩
abbrev main_c_16 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_c_17 : Ref sig .tc := ⟨.hbm, 123, rfl⟩
abbrev main_v93 : Ref sig .tc := ⟨.hbm, 124, rfl⟩
abbrev main_v94 : Ref sig .tc := ⟨.hbm, 125, rfl⟩
abbrev main_c_18 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x200000_S1x200000_0_0 : S3x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S3x200000_S1x200000_1_0 : S3x200000.Slices ![1, 0] S1x200000
  slices_S3x200000_S1x200000_2_0 : S3x200000.Slices ![2, 0] S1x200000
  concatenates_S200000x128_S200000x128_S200000x128_S200000x384_d1 : Shape.Concatenates [S200000x128, S200000x128, S200000x128] S200000x384 1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S50000x256_S256x128_S50000x128_1_0_0_1_n_n_wf : DotDims.WF S50000x256 S256x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  gather_S50000x128_S200000x1_S200000x128_1_0_n_n_0_1_1128_wf : GatherDims.WF S50000x128 S200000x1 S200000x128 [1] [0] [] [0] [] 1 ![1, 128]
  dot_S200000x384_S384x1_S200000x1_1_0_0_1_n_n_wf : DotDims.WF S200000x384 S384x1 S200000x1 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x384_S384x1_S200000x1_1_0_0_1_n_n : DotDims S200000x384 S384x1 S200000x1 where
  lhsContracting := [1]
  rhsContracting := [0]
  lhsNonContracting := [0]
  rhsNonContracting := [1]
  lhsBatch := []
  rhsBatch := []
  wf := dot_S200000x384_S384x1_S200000x1_1_0_0_1_n_n_wf

class Facts : Prop extends Facts₀ where

variable [Facts]
-- ==== Proof.KbRegion0.lean ====
/-
  Region 0 of the program's three matrix products: one grid point multiplies a block of rows of the left operand by the
  whole right operand. At an entry valuation V of the core's buffers this module names the block each window stages at a
  grid point, the value the body stores (the product of the two staged blocks, both first narrowed to bf16, accumulated
  from zero), the run of the body from the staged blocks to that value, and the pipeline's proof data built from them.
-/
import proofs.«152676_j68221260529797_1_alg».proof.Proof.Gen.Kernel.Launch
import proofs.«152676_j68221260529797_1_alg».proof.Proof.Gen.Kernel.Skeleton
import proofs.«152676_j68221260529797_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t stages, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block of rows at every point: it is fetched at each one and the body
    only reads it. -/
theorem before_lhs_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right operand's staging buffer holds the whole right operand at every point: fetched once, its block index
    never moves, and the body only reads it. -/
theorem before_rhs_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rLhs : Rect S2000x256 := Rect.unit (s := S2000x256) ![0, 0] S2000x256.size inb_S2000x256_S2000x256_0_0
abbrev rRhs : Rect S256x128 := Rect.unit (s := S256x128) ![0, 0] S256x128.size inb_S256x128_S256x128_0_0
abbrev rOut : Rect S2000x128 := Rect.unit (s := S2000x128) ![0, 0] S2000x128.size inb_S2000x128_S2000x128_0_0

/-- What the body leaves in the output's staging buffer, from the two staged blocks: its one store, the product. -/
def out (x0 : Vec F S2000x256 .f32) (x1 : Vec F S256x128 .f32) : Vec F S2000x128 .f32 :=
  View.canon [⟨rOut, k0_pay1 (View.ld x0 rLhs) (View.ld x1 rRhs)⟩]

/-- The one store writes the whole buffer. -/
theorem cover (p0 : Vec F S2000x128 .f32) (y : S2000x128.Idx) :
    ∃ pc ∈ ([⟨rOut, p0⟩] : List (View.Piece (Elt F) S2000x128 .f32)), y ∈ pc.1.set :=
  View.cover_of_tiled [⟨rOut, p0⟩] S2000x128.size (by rfl) y

set_option maxHeartbeats 1000000 in
/-- The body, on whole staging buffers holding the two operand blocks and anything in the output's, runs to its return
    with the operands' buffers as they were and the output's at the product. -/
theorem sound_kernel (c : Dev nD) (E : Set ℕ) (i : grid0.Coords) (arg1 : Memref sig .tc .vmem S2000x256 .f32) (harg1 : arg1.IsWhole)
    (arg2 : Memref sig .tc .vmem S256x128 .f32) (harg2 : arg2.IsWhole) (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The pipeline's proof data on core c: the arrays as the region finds them; after the body at point t the operands'
    buffers at their blocks and the output's at the product of the two; nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_lhs (c : Dev nD) (t : Fin cfg0.N) : (dat V c).after 0 t = iblk V c 0 t := by dsimp only [dat]
theorem after_rhs (c : Dev nD) (t : Fin cfg0.N) : (dat V c).after 1 t = iblk V c 1 t := by dsimp only [dat]
theorem after_out (c : Dev nD) (t : Fin cfg0.N) : (dat V c).after 2 t = out (iblk V c 0 t) (iblk V c 1 t) := by dsimp only [dat]

theorem before_lhs (c : Dev nD) (t : Fin cfg0.N) (d) : (dat V c).before 0 t d = iblk V c 0 t :=
  before_lhs_of V (dat V c) (A_eq V c 0) (after_lhs V c) t d
theorem before_rhs (c : Dev nD) (t : Fin cfg0.N) (d) : (dat V c).before 1 t d = iblk V c 1 t :=
  before_rhs_of V (dat V c) (A_eq V c 1) (after_rhs V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the operands' buffers hold their blocks, so the run above applies; the invariant and what
    the core owes pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_lhs, before_rhs]
  rw [show (dat V c).Φ t.succ = (dat V c).Φ t.castSucc from rfl,
    show (dat V c).owesAt () t.succ = (dat V c).owesAt () t.castSucc from rfl,
    after_lhs, after_rhs, after_out]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Rgn0

end
-- ==== Proof.KbRegion1.lean ====
/-
  Region 1 of the program's three matrix products: one grid point multiplies a block of rows of the left operand by the
  whole right operand. At an entry valuation V of the core's buffers this module names the block each window stages at a
  grid point, the value the body stores (the product of the two staged blocks, both first narrowed to bf16, accumulated
  from zero), the run of the body from the staged blocks to that value, and the pipeline's proof data built from them.
-/
import proofs.«152676_j68221260529797_1_alg».proof.Proof.Gen.Kernel.Launch
import proofs.«152676_j68221260529797_1_alg».proof.Proof.Gen.Kernel.Skeleton
import proofs.«152676_j68221260529797_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t stages, read off the array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block of rows at every point: it is fetched at each one and the body
    only reads it. -/
theorem before_lhs_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right operand's staging buffer holds the whole right operand at every point: fetched once, its block index
    never moves, and the body only reads it. -/
theorem before_rhs_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rLhs : Rect S2000x128 := Rect.unit (s := S2000x128) ![0, 0] S2000x128.size inb_S2000x128_S2000x128_0_0
abbrev rRhs : Rect S128x128 := Rect.unit (s := S128x128) ![0, 0] S128x128.size inb_S128x128_S128x128_0_0
abbrev rOut : Rect S2000x128 := Rect.unit (s := S2000x128) ![0, 0] S2000x128.size inb_S2000x128_S2000x128_0_0

/-- What the body leaves in the output's staging buffer, from the two staged blocks: its one store, the product. -/
def out (x0 : Vec F S2000x128 .f32) (x1 : Vec F S128x128 .f32) : Vec F S2000x128 .f32 :=
  View.canon [⟨rOut, k1_pay1 (View.ld x0 rLhs) (View.ld x1 rRhs)⟩]

/-- The one store writes the whole buffer. -/
theorem cover (p0 : Vec F S2000x128 .f32) (y : S2000x128.Idx) :
    ∃ pc ∈ ([⟨rOut, p0⟩] : List (View.Piece (Elt F) S2000x128 .f32)), y ∈ pc.1.set :=
  View.cover_of_tiled [⟨rOut, p0⟩] S2000x128.size (by rfl) y

set_option maxHeartbeats 1000000 in
/-- The body, on whole staging buffers holding the two operand blocks and anything in the output's, runs to its return
    with the operands' buffers as they were and the output's at the product. -/
theorem sound_kernel (c : Dev nD) (E : Set ℕ) (i : grid1.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The pipeline's proof data on core c: the arrays as the region finds them; after the body at point t the operands'
    buffers at their blocks and the output's at the product of the two; nothing owed, full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_lhs (c : Dev nD) (t : Fin cfg1.N) : (dat V c).after 0 t = iblk V c 0 t := by dsimp only [dat]
theorem after_rhs (c : Dev nD) (t : Fin cfg1.N) : (dat V c).after 1 t = iblk V c 1 t := by dsimp only [dat]
theorem after_out (c : Dev nD) (t : Fin cfg1.N) : (dat V c).after 2 t = out (iblk V c 0 t) (iblk V c 1 t) := by dsimp only [dat]

theorem before_lhs (c : Dev nD) (t : Fin cfg1.N) (d) : (dat V c).before 0 t d = iblk V c 0 t :=
  before_lhs_of V (dat V c) (A_eq V c 0) (after_lhs V c) t d
theorem before_rhs (c : Dev nD) (t : Fin cfg1.N) (d) : (dat V c).before 1 t d = iblk V c 1 t :=
  before_rhs_of V (dat V c) (A_eq V c 1) (after_rhs V c) t d

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the operands' buffers hold their blocks, so the run above applies; the invariant and what
    the core owes pass through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_lhs, before_rhs]
  rw [show (dat V c).Φ t.succ = (dat V c).Φ t.castSucc from rfl,
    show (dat V c).owesAt () t.succ = (dat V c).owesAt () t.castSucc from rfl,
    after_lhs, after_rhs, after_out]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Rgn1

end
-- ==== Proof.KbRegion2.lean ====
/-
  Region 2 of the program's three matrix products: one grid point multiplies a block of rows of the left operand by the
  whole right operand. At an entry valuation V of the core's buffers this module names the block each window stages at a
  grid point, the value the body stores (the product of the two staged blocks, both first narrowed to bf16, accumulated
  from zero), the run of the body from the staged blocks to that value, and the pipeline's proof data built from them.
-/
import proofs.«152676_j68221260529797_1_alg».proof.Proof.Gen.Kernel.Launch
import proofs.«152676_j68221260529797_1_alg».proof.Proof.Gen.Kernel.Skeleton
import proofs.«152676_j68221260529797_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t stages, read off the array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block of rows at every point: it is fetched at each one and the body
    only reads it. -/
theorem before_lhs_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right operand's staging buffer holds the whole right operand at every point: fetched once, its block index
    never moves, and the body only reads it. -/
theorem before_rhs_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rLhs : Rect S2000x384 := Rect.unit (s := S2000x384) ![0, 0] S2000x384.size inb_S2000x384_S2000x384_0_0
abbrev rRhs : Rect S384x128 := Rect.unit (s := S384x128) ![0, 0] S384x128.size inb_S384x128_S384x128_0_0
abbrev rOut : Rect S2000x128 := Rect.unit (s := S2000x128) ![0, 0] S2000x128.size inb_S2000x128_S2000x128_0_0

/-- What the body leaves in the output's staging buffer, from the two staged blocks: its one store, the product. -/
def out (x0 : Vec F S2000x384 .f32) (x1 : Vec F S384x128 .f32) : Vec F S2000x128 .f32 :=
  View.canon [⟨rOut, k2_pay1 (View.ld x0 rLhs) (View.ld x1 rRhs)⟩]

/-- The one store writes the whole buffer. -/
theorem cover (p0 : Vec F S2000x128 .f32) (y : S2000x128.Idx) :
    ∃ pc ∈ ([⟨rOut, p0⟩] : List (View.Piece (Elt F) S2000x128 .f32)), y ∈ pc.1.set :=
  View.cover_of_tiled [⟨rOut, p0⟩] S2000x128.size (by rfl) y

set_option maxHeartbeats 1000000 in
/-- The body, on whole staging buffers holding the two operand blocks and anything in the output's, runs to its return
    with the operands' buffers as they were and the output's at the product. -/
theorem sound_kernel (c : Dev nD) (E : Set ℕ) (i : grid2.Coords) (arg1 : Memref sig .tc .vmem S2000x384 .f32) (harg1 : arg1.IsWhole)
    (arg2 : Memref sig .tc .vmem S384x128 .f32) (harg2 : arg2.IsWhole) (arg3 : Memref sig .tc .vmem S2000x128 .f32) (harg3 : arg3.IsWhole)
    (x0 : Vec F S2000x384 .f32) (x1 : Vec F S384x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The pipeline's proof data on core c: the arrays as the region finds them; after the body at point t the operands'
    buffers at their blocks and the output's at the product of the two; nothing owed, full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out (iblk V c 0 t) (iblk V c 1 t)
  Φ _ := Pipeline.ΦA spec2 c
  q _ := fullShare
  owed _ := 0

theorem A_eq (c : Dev nD) (w : Fin cfg2.W) : (dat V c).A w = V c (Pipeline.arrRef spec2 w) := by
  dsimp only [dat]

theorem after_lhs (c : Dev nD) (t : Fin cfg2.N) : (dat V c).after 0 t = iblk V c 0 t := by dsimp only [dat]
theorem after_rhs (c : Dev nD) (t : Fin cfg2.N) : (dat V c).after 1 t = iblk V c 1 t := by dsimp only [dat]
theorem after_out (c : Dev nD) (t : Fin cfg2.N) : (dat V c).after 2 t = out (iblk V c 0 t) (iblk V c 1 t) := by dsimp only [dat]

theorem before_lhs (c : Dev nD) (t : Fin cfg2.N) (d) : (dat V c).before 0 t d = iblk V c 0 t :=
  before_lhs_of V (dat V c) (A_eq V c 0) (after_lhs V c) t d
theorem before_rhs (c : Dev nD) (t : Fin cfg2.N) (d) : (dat V c).before 1 t d = iblk V c 1 t :=
  before_rhs_of V (dat V c) (A_eq V c 1) (after_rhs V c) t d

/-- What the body is called with at point t, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the operands' buffers hold their blocks, so the run above applies; the invariant and what
    the core owes pass through untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_lhs, before_rhs]
  rw [show (dat V c).Φ t.succ = (dat V c).Φ t.castSucc from rfl,
    show (dat V c).owesAt () t.succ = (dat V c).owesAt () t.castSucc from rfl,
    after_lhs, after_rhs, after_out]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Rgn2

end
-- ==== Proof.KbChain.lean ====
/-
  The core's buffer contents at every boundary between the program's nine segments (six stretches of host operations and
  three matrix-product regions), as a fold from the launch memory: a host stretch applies its operations; a region leaves
  its output array at what its write-backs assemble and every other buffer as it found it. Then: a buffer no segment
  writes keeps its launch contents, so every argument ends as launched.
-/
import proofs.«152676_j68221260529797_1_alg».proof.Proof.Gen.Kernel.Regions
import proofs.«152676_j68221260529797_1_alg».proof.Proof.KbRegion0
import proofs.«152676_j68221260529797_1_alg».proof.Proof.KbRegion1
import proofs.«152676_j68221260529797_1_alg».proof.Proof.KbRegion2

set_option maxRecDepth 16384

noncomputable section

namespace Cert.Kernel.Chain

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) :=
  fun c b => W c b

/-- At launch. -/
abbrev W0 : Dev nD → Valuation τ sig (Elt F) := fun c b => m (c, b)
/-- After the first host stretch: what region 0 is entered from. -/
abbrev W1 : Dev nD → Valuation τ sig (Elt F) := fun c => StableHlo.after hostOps0 (W0 m c)
/-- After region 0. -/
def W2 (c : Dev nD) : Valuation τ sig (Elt F) :=
  Pipeline.withArrays spec0 c (W1 m c) fun w => (Rgn0.dat (atRefs (W1 m)) c).arrAt w cfg0.N
/-- After the second host stretch, -/
abbrev W3 : Dev nD → Valuation τ sig (Elt F) := fun c => StableHlo.after hostOps1 (W2 m c)
/-- and the third: what region 1 is entered from. -/
abbrev W4 : Dev nD → Valuation τ sig (Elt F) := fun c => StableHlo.after hostOps1_1 (W3 m c)
/-- After region 1. -/
def W5 (c : Dev nD) : Valuation τ sig (Elt F) :=
  Pipeline.withArrays spec1 c (W4 m c) fun w => (Rgn1.dat (atRefs (W4 m)) c).arrAt w cfg1.N
/-- After the fourth host stretch, -/
abbrev W6 : Dev nD → Valuation τ sig (Elt F) := fun c => StableHlo.after hostOps2 (W5 m c)
/-- and the fifth: what region 2 is entered from. -/
abbrev W7 : Dev nD → Valuation τ sig (Elt F) := fun c => StableHlo.after hostOps2_1 (W6 m c)
/-- After region 2. -/
def W8 (c : Dev nD) : Valuation τ sig (Elt F) :=
  Pipeline.withArrays spec2 c (W7 m c) fun w => (Rgn2.dat (atRefs (W7 m)) c).arrAt w cfg2.N
/-- After the last host stretch: the end. -/
abbrev W9 : Dev nD → Valuation τ sig (Elt F) := fun c => StableHlo.after hostOps3 (W8 m c)

/-! ## What a region leaves -/

theorem W2_arr (c : Dev nD) (w : Fin cfg0.W) :
    W2 m c (Proc.devRef .tc (Pipeline.arrRef spec0 w)) = (Rgn0.dat (atRefs (W1 m)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W5_arr (c : Dev nD) (w : Fin cfg1.W) :
    W5 m c (Proc.devRef .tc (Pipeline.arrRef spec1 w)) = (Rgn1.dat (atRefs (W4 m)) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
theorem W8_arr (c : Dev nD) (w : Fin cfg2.W) :
    W8 m c (Proc.devRef .tc (Pipeline.arrRef spec2 w)) = (Rgn2.dat (atRefs (W7 m)) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb

/-- A region's operand arrays come out as they went in (only its result's array is written back). -/
theorem W2_lhs (c : Dev nD) : W2 m c (Proc.devRef .tc main_arg0) = W1 m c (Proc.devRef .tc main_arg0) :=
  (W2_arr m c 0).trans (((Rgn0.dat (atRefs (W1 m)) c).arrAt_in 0 rfl _).trans (Rgn0.A_eq (atRefs (W1 m)) c 0))
theorem W2_rhs (c : Dev nD) : W2 m c (Proc.devRef .tc main_arg3) = W1 m c (Proc.devRef .tc main_arg3) :=
  (W2_arr m c 1).trans (((Rgn0.dat (atRefs (W1 m)) c).arrAt_in 1 rfl _).trans (Rgn0.A_eq (atRefs (W1 m)) c 1))
theorem W5_rhs (c : Dev nD) : W5 m c (Proc.devRef .tc main_arg5) = W4 m c (Proc.devRef .tc main_arg5) :=
  (W5_arr m c 1).trans (((Rgn1.dat (atRefs (W4 m)) c).arrAt_in 1 rfl _).trans (Rgn1.A_eq (atRefs (W4 m)) c 1))

/-! ## What a host stretch leaves alone -/

theorem W1_keep (c : Dev nD) (r : Ref sig .tc) (h : r ∉ hostOps0_W) : W1 m c r = W0 m c r :=
  StableHlo.after_of_writes_sub hostOps0 _ hostOps0_writes h
theorem W3_keep (c : Dev nD) (r : Ref sig .tc) (h : r ∉ hostOps1_W) : W3 m c r = W2 m c r :=
  StableHlo.after_of_writes_sub hostOps1 _ hostOps1_writes h
theorem W4_keep (c : Dev nD) (r : Ref sig .tc) (h : r ∉ hostOps1_1_W) : W4 m c r = W3 m c r :=
  StableHlo.after_of_writes_sub hostOps1_1 _ hostOps1_1_writes h
theorem W6_keep (c : Dev nD) (r : Ref sig .tc) (h : r ∉ hostOps2_W) : W6 m c r = W5 m c r :=
  StableHlo.after_of_writes_sub hostOps2 _ hostOps2_writes h
theorem W7_keep (c : Dev nD) (r : Ref sig .tc) (h : r ∉ hostOps2_1_W) : W7 m c r = W6 m c r :=
  StableHlo.after_of_writes_sub hostOps2_1 _ hostOps2_1_writes h
theorem W9_keep (c : Dev nD) (r : Ref sig .tc) (h : r ∉ hostOps3_W) : W9 m c r = W8 m c r :=
  StableHlo.after_of_writes_sub hostOps3 _ hostOps3_writes h

/-- A buffer that no host stretch writes and every region hands back as found holds its launch contents at the end. -/
theorem W9_launch (c : Dev nD) (r : Ref sig .tc)
    (h0 : r ∉ hostOps0_W) (h1 : r ∉ hostOps1_W) (h11 : r ∉ hostOps1_1_W) (h2 : r ∉ hostOps2_W) (h21 : r ∉ hostOps2_1_W) (h3 : r ∉ hostOps3_W)
    (k0 : W2 m c r = W1 m c r) (k1 : W5 m c r = W4 m c r) (k2 : W8 m c r = W7 m c r) :
    W9 m c r = m ((c : Thread nD τ).loc r) :=
  (W9_keep m c r h3).trans <| k2.trans <| (W7_keep m c r h21).trans <| (W6_keep m c r h2).trans <| k1.trans <|
    (W4_keep m c r h11).trans <| (W3_keep m c r h1).trans <| k0.trans <| (W1_keep m c r h0).trans rfl

theorem W9_main_arg0 (c : Dev nD) : W9 m c main_arg0 = m ((c : Thread nD τ).loc main_arg0) :=
  W9_launch m c main_arg0 (by decide) (by decide) (by decide) (by decide) (by decide) (by decide)
    (W2_lhs m c) (W5_of_ne m c main_arg0 (by decide)) (W8_of_ne m c main_arg0 (by decide))
theorem W9_main_arg1 (c : Dev nD) : W9 m c main_arg1 = m ((c : Thread nD τ).loc main_arg1) :=
  W9_launch m c main_arg1 (by decide) (by decide) (by decide) (by decide) (by decide) (by decide)
    (W2_of_ne m c main_arg1 (by decide)) (W5_of_ne m c main_arg1 (by decide)) (W8_of_ne m c main_arg1 (by decide))
theorem W9_main_arg2 (c : Dev nD) : W9 m c main_arg2 = m ((c : Thread nD τ).loc main_arg2) :=
  W9_launch m c main_arg2 (by decide) (by decide) (by decide) (by decide) (by decide) (by decide)
    (W2_of_ne m c main_arg2 (by decide)) (W5_of_ne m c main_arg2 (by decide)) (W8_of_ne m c main_arg2 (by decide))
theorem W9_main_arg3 (c : Dev nD) : W9 m c main_arg3 = m ((c : Thread nD τ).loc main_arg3) :=
  W9_launch m c main_arg3 (by decide) (by decide) (by decide) (by decide) (by decide) (by decide)
    (W2_rhs m c) (W5_of_ne m c main_arg3 (by decide)) (W8_of_ne m c main_arg3 (by decide))
theorem W9_main_arg4 (c : Dev nD) : W9 m c main_arg4 = m ((c : Thread nD τ).loc main_arg4) :=
  W9_launch m c main_arg4 (by decide) (by decide) (by decide) (by decide) (by decide) (by decide)
    (W2_of_ne m c main_arg4 (by decide)) (W5_of_ne m c main_arg4 (by decide)) (W8_of_ne m c main_arg4 (by decide))
theorem W9_main_arg5 (c : Dev nD) : W9 m c main_arg5 = m ((c : Thread nD τ).loc main_arg5) :=
  W9_launch m c main_arg5 (by decide) (by decide) (by decide) (by decide) (by decide) (by decide)
    (W2_of_ne m c main_arg5 (by decide)) (W5_rhs m c) (W8_of_ne m c main_arg5 (by decide))
theorem W9_main_arg6 (c : Dev nD) : W9 m c main_arg6 = m ((c : Thread nD τ).loc main_arg6) :=
  W9_launch m c main_arg6 (by decide) (by decide) (by decide) (by decide) (by decide) (by decide)
    (W2_of_ne m c main_arg6 (by decide)) (W5_of_ne m c main_arg6 (by decide)) (W8_of_ne m c main_arg6 (by decide))
theorem W9_main_arg7 (c : Dev nD) : W9 m c main_arg7 = m ((c : Thread nD τ).loc main_arg7) :=
  W9_launch m c main_arg7 (by decide) (by decide) (by decide) (by decide) (by decide) (by decide)
    (W2_of_ne m c main_arg7 (by decide)) (W5_of_ne m c main_arg7 (by decide)) (W8_of_ne m c main_arg7 (by decide))
theorem W9_main_arg8 (c : Dev nD) : W9 m c main_arg8 = m ((c : Thread nD τ).loc main_arg8) :=
  W9_launch m c main_arg8 (by decide) (by decide) (by decide) (by decide) (by decide) (by decide)
    (W2_of_ne m c main_arg8 (by decide)) (W5_of_ne m c main_arg8 (by decide)) (W8_of_ne m c main_arg8 (by decide))

end Cert.Kernel.Chain

end
-- ==== Proof.KbRun.lean ====
/-
  The program's run: its nine segments — six stretches of host operations and the three matrix-product regions — as the
  launch theorem's segment list, each region's record over the thread state "every unscoped buffer at the boundary's contents,
  the generator register at some state, nothing owed", and the conclusion that every weakly fair execution from any memory
  terminates with every unscoped buffer at the last boundary's contents.
-/
import proofs.«152676_j68221260529797_1_alg».proof.Proof.KbChain

set_option maxRecDepth 16384

noncomputable section

namespace Cert.Kernel.Chain

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Rgn0.dat (atRefs (W1 m)) c
  | ⟨1, _⟩ => fun c => Rgn1.dat (atRefs (W4 m)) c
  | ⟨2, _⟩ => fun c => Rgn2.dat (atRefs (W7 m)) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W9 m c) ∗ ∃ r, prngReg c r)

-- a library lemma stated over the pinned configuration unifies with the printed one only when unification may unfold plain
-- definitions in a metavariable's type
set_option backward.isDefEq.respectTransparency.types false in
/-- Region 0 over the thread state: entered with every unscoped buffer at W1, left with them at W2. Its three
    arrays are split out of the unscoped buffers on entry and put back, the result's at what the write-backs assembled, on exit;
    the generator register goes into the pipeline's invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Rgn0.body_obligation (atRefs (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atRefs (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (W1 m) c) (atRefs (W2 m) c) ((pdats m 0 c).arrAt · cfg0.N)
      (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state: entered with every unscoped buffer at W4, left with them at W5. Its three
    arrays are split out of the unscoped buffers on entry and put back, the result's at what the write-backs assembled, on exit;
    the generator register goes into the pipeline's invariant and comes back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Rgn1.body_obligation (atRefs (W4 m)) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (atRefs (W4 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (W4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (W4 m) c) (atRefs (W5 m) c) ((pdats m 1 c).arrAt · cfg1.N)
      (fun w => (W5_arr m c w).symm)
      (fun b hb => W5_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 over the thread state: entered with every unscoped buffer at W7, left with them at W8. Its three
    arrays are split out of the unscoped buffers on entry and put back, the result's at what the write-backs assembled, on exit;
    the generator register goes into the pipeline's invariant and comes back; nothing is owed; the kernel has no semaphore of
    its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Rgn2.body_obligation (atRefs (W7 m)) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (atRefs (W7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (W7 m) c) (atRefs (W8 m) c) ((pdats m 2 c).arrAt · cfg2.N)
      (fun w => (W8_arr m c w).symm)
      (fun b hb => W8_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's nine segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)),
    .host (hseg hostOps2_1 hostOps2_1_sub hostOps2_1_fresh (W6 m)),
    .region (reg2 m),
    .host (hseg hostOps3 hostOps3_sub hostOps3_fresh (W8 m)) ]
/-- The program is the run of its segments. -/
theorem main_run (c : Dev nD) : main (F := F) c = Pipeline.Seg.run (segs m) := (main_chain c).trans (by chain_rfl)

set_option backward.isDefEq.respectTransparency.types false in
/-- From any memory with zero counters every weakly fair execution of the program terminates, nothing faulting, with every
    unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun c => by
        show iprop(StableHlo.held (c : Thread nD τ) (Pipeline.ucRefs τ sig) (W9 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c)⟩)
    (run m ρ)

end Cert.Kernel.Chain

end
-- ==== Proof.KiRegion0.lean ====
/-
  Region 0 of the program's three matrix products: one grid point multiplies a block of rows of the left operand by the
  whole right operand. At an entry valuation V of the core's buffers this module names the block each window stages at a
  grid point, the value the body stores (the product of the two staged blocks, both first narrowed to bf16, accumulated
  from zero), the run of the body from the staged blocks to that value, and the pipeline's proof data built from them.
-/
import proofs.«152676_j68221260529797_1_alg».proof.Proof.Gen.KernelIdeal.Launch
import proofs.«152676_j68221260529797_1_alg».proof.Proof.Gen.KernelIdeal.Skeleton
import proofs.«152676_j68221260529797_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t stages, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block of rows at every point: it is fetched at each one and the body
    only reads it. -/
theorem before_lhs_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right operand's staging buffer holds the whole right operand at every point: fetched once, its block index
    never moves, and the body only reads it. -/
theorem before_rhs_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rLhs : Rect S2000x256 := Rect.unit (s := S2000x256) ![0, 0] S2000x256.size inb_S2000x256_S2000x256_0_0
abbrev rRhs : Rect S256x128 := Rect.unit (s := S256x128) ![0, 0] S256x128.size inb_S256x128_S256x128_0_0
abbrev rOut : Rect S2000x128 := Rect.unit (s := S2000x128) ![0, 0] S2000x128.size inb_S2000x128_S2000x128_0_0

/-- What the body leaves in the output's staging buffer, from the two staged blocks: its one store, the product. -/
def out (x0 : Vec F S2000x256 .f32) (x1 : Vec F S256x128 .f32) : Vec F S2000x128 .f32 :=
  View.canon [⟨rOut, k0_pay1 (View.ld x0 rLhs) (View.ld x1 rRhs)⟩]

/-- The one store writes the whole buffer. -/
theorem cover (p0 : Vec F S2000x128 .f32) (y : S2000x128.Idx) :
    ∃ pc ∈ ([⟨rOut, p0⟩] : List (View.Piece (Elt F) S2000x128 .f32)), y ∈ pc.1.set :=
  View.cover_of_tiled [⟨rOut, p0⟩] S2000x128.size (by rfl) y

set_option maxHeartbeats 1000000 in
/-- The body, on whole staging buffers holding the two operand blocks and anything in the output's, runs to its return
    with the operands' buffers as they were and the output's at the product. -/
theorem sound_kernel (c : Dev nD) (E : Set ℕ) (i : grid0.Coords) (arg1 : Memref sig .tc .vmem S2000x256 .f32) (harg1 : arg1.IsWhole)
    (arg2 : Memref sig .tc .vmem S256x128 .f32) (harg2 : arg2.IsWhole) (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The pipeline's proof data on core c: the arrays as the region finds them; after the body at point t the operands'
    buffers at their blocks and the output's at the product of the two; nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_lhs (c : Dev nD) (t : Fin cfg0.N) : (dat V c).after 0 t = iblk V c 0 t := by dsimp only [dat]
theorem after_rhs (c : Dev nD) (t : Fin cfg0.N) : (dat V c).after 1 t = iblk V c 1 t := by dsimp only [dat]
theorem after_out (c : Dev nD) (t : Fin cfg0.N) : (dat V c).after 2 t = out (iblk V c 0 t) (iblk V c 1 t) := by dsimp only [dat]

theorem before_lhs (c : Dev nD) (t : Fin cfg0.N) (d) : (dat V c).before 0 t d = iblk V c 0 t :=
  before_lhs_of V (dat V c) (A_eq V c 0) (after_lhs V c) t d
theorem before_rhs (c : Dev nD) (t : Fin cfg0.N) (d) : (dat V c).before 1 t d = iblk V c 1 t :=
  before_rhs_of V (dat V c) (A_eq V c 1) (after_rhs V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the operands' buffers hold their blocks, so the run above applies; the invariant and what
    the core owes pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_lhs, before_rhs]
  rw [show (dat V c).Φ t.succ = (dat V c).Φ t.castSucc from rfl,
    show (dat V c).owesAt () t.succ = (dat V c).owesAt () t.castSucc from rfl,
    after_lhs, after_rhs, after_out]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Rgn0

end
-- ==== Proof.KiRegion1.lean ====
/-
  Region 1 of the program's three matrix products: one grid point multiplies a block of rows of the left operand by the
  whole right operand. At an entry valuation V of the core's buffers this module names the block each window stages at a
  grid point, the value the body stores (the product of the two staged blocks, both first narrowed to bf16, accumulated
  from zero), the run of the body from the staged blocks to that value, and the pipeline's proof data built from them.
-/
import proofs.«152676_j68221260529797_1_alg».proof.Proof.Gen.KernelIdeal.Launch
import proofs.«152676_j68221260529797_1_alg».proof.Proof.Gen.KernelIdeal.Skeleton
import proofs.«152676_j68221260529797_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t stages, read off the array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block of rows at every point: it is fetched at each one and the body
    only reads it. -/
theorem before_lhs_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right operand's staging buffer holds the whole right operand at every point: fetched once, its block index
    never moves, and the body only reads it. -/
theorem before_rhs_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rLhs : Rect S2000x128 := Rect.unit (s := S2000x128) ![0, 0] S2000x128.size inb_S2000x128_S2000x128_0_0
abbrev rRhs : Rect S128x128 := Rect.unit (s := S128x128) ![0, 0] S128x128.size inb_S128x128_S128x128_0_0
abbrev rOut : Rect S2000x128 := Rect.unit (s := S2000x128) ![0, 0] S2000x128.size inb_S2000x128_S2000x128_0_0

/-- What the body leaves in the output's staging buffer, from the two staged blocks: its one store, the product. -/
def out (x0 : Vec F S2000x128 .f32) (x1 : Vec F S128x128 .f32) : Vec F S2000x128 .f32 :=
  View.canon [⟨rOut, k1_pay1 (View.ld x0 rLhs) (View.ld x1 rRhs)⟩]

/-- The one store writes the whole buffer. -/
theorem cover (p0 : Vec F S2000x128 .f32) (y : S2000x128.Idx) :
    ∃ pc ∈ ([⟨rOut, p0⟩] : List (View.Piece (Elt F) S2000x128 .f32)), y ∈ pc.1.set :=
  View.cover_of_tiled [⟨rOut, p0⟩] S2000x128.size (by rfl) y

set_option maxHeartbeats 1000000 in
/-- The body, on whole staging buffers holding the two operand blocks and anything in the output's, runs to its return
    with the operands' buffers as they were and the output's at the product. -/
theorem sound_kernel (c : Dev nD) (E : Set ℕ) (i : grid1.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The pipeline's proof data on core c: the arrays as the region finds them; after the body at point t the operands'
    buffers at their blocks and the output's at the product of the two; nothing owed, full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_lhs (c : Dev nD) (t : Fin cfg1.N) : (dat V c).after 0 t = iblk V c 0 t := by dsimp only [dat]
theorem after_rhs (c : Dev nD) (t : Fin cfg1.N) : (dat V c).after 1 t = iblk V c 1 t := by dsimp only [dat]
theorem after_out (c : Dev nD) (t : Fin cfg1.N) : (dat V c).after 2 t = out (iblk V c 0 t) (iblk V c 1 t) := by dsimp only [dat]

theorem before_lhs (c : Dev nD) (t : Fin cfg1.N) (d) : (dat V c).before 0 t d = iblk V c 0 t :=
  before_lhs_of V (dat V c) (A_eq V c 0) (after_lhs V c) t d
theorem before_rhs (c : Dev nD) (t : Fin cfg1.N) (d) : (dat V c).before 1 t d = iblk V c 1 t :=
  before_rhs_of V (dat V c) (A_eq V c 1) (after_rhs V c) t d

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the operands' buffers hold their blocks, so the run above applies; the invariant and what
    the core owes pass through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_lhs, before_rhs]
  rw [show (dat V c).Φ t.succ = (dat V c).Φ t.castSucc from rfl,
    show (dat V c).owesAt () t.succ = (dat V c).owesAt () t.castSucc from rfl,
    after_lhs, after_rhs, after_out]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Rgn1

end
-- ==== Proof.KiRegion2.lean ====
/-
  Region 2 of the program's three matrix products: one grid point multiplies a block of rows of the left operand by the
  whole right operand. At an entry valuation V of the core's buffers this module names the block each window stages at a
  grid point, the value the body stores (the product of the two staged blocks, both first narrowed to bf16, accumulated
  from zero), the run of the body from the staged blocks to that value, and the pipeline's proof data built from them.
-/
import proofs.«152676_j68221260529797_1_alg».proof.Proof.Gen.KernelIdeal.Launch
import proofs.«152676_j68221260529797_1_alg».proof.Proof.Gen.KernelIdeal.Skeleton
import proofs.«152676_j68221260529797_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t stages, read off the array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block of rows at every point: it is fetched at each one and the body
    only reads it. -/
theorem before_lhs_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right operand's staging buffer holds the whole right operand at every point: fetched once, its block index
    never moves, and the body only reads it. -/
theorem before_rhs_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rLhs : Rect S2000x384 := Rect.unit (s := S2000x384) ![0, 0] S2000x384.size inb_S2000x384_S2000x384_0_0
abbrev rRhs : Rect S384x128 := Rect.unit (s := S384x128) ![0, 0] S384x128.size inb_S384x128_S384x128_0_0
abbrev rOut : Rect S2000x128 := Rect.unit (s := S2000x128) ![0, 0] S2000x128.size inb_S2000x128_S2000x128_0_0

/-- What the body leaves in the output's staging buffer, from the two staged blocks: its one store, the product. -/
def out (x0 : Vec F S2000x384 .f32) (x1 : Vec F S384x128 .f32) : Vec F S2000x128 .f32 :=
  View.canon [⟨rOut, k2_pay1 (View.ld x0 rLhs) (View.ld x1 rRhs)⟩]

/-- The one store writes the whole buffer. -/
theorem cover (p0 : Vec F S2000x128 .f32) (y : S2000x128.Idx) :
    ∃ pc ∈ ([⟨rOut, p0⟩] : List (View.Piece (Elt F) S2000x128 .f32)), y ∈ pc.1.set :=
  View.cover_of_tiled [⟨rOut, p0⟩] S2000x128.size (by rfl) y

set_option maxHeartbeats 1000000 in
/-- The body, on whole staging buffers holding the two operand blocks and anything in the output's, runs to its return
    with the operands' buffers as they were and the output's at the product. -/
theorem sound_kernel (c : Dev nD) (E : Set ℕ) (i : grid2.Coords) (arg1 : Memref sig .tc .vmem S2000x384 .f32) (harg1 : arg1.IsWhole)
    (arg2 : Memref sig .tc .vmem S384x128 .f32) (harg2 : arg2.IsWhole) (arg3 : Memref sig .tc .vmem S2000x128 .f32) (harg3 : arg3.IsWhole)
    (x0 : Vec F S2000x384 .f32) (x1 : Vec F S384x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The pipeline's proof data on core c: the arrays as the region finds them; after the body at point t the operands'
    buffers at their blocks and the output's at the product of the two; nothing owed, full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out (iblk V c 0 t) (iblk V c 1 t)
  Φ _ := Pipeline.ΦA spec2 c
  q _ := fullShare
  owed _ := 0

theorem A_eq (c : Dev nD) (w : Fin cfg2.W) : (dat V c).A w = V c (Pipeline.arrRef spec2 w) := by
  dsimp only [dat]

theorem after_lhs (c : Dev nD) (t : Fin cfg2.N) : (dat V c).after 0 t = iblk V c 0 t := by dsimp only [dat]
theorem after_rhs (c : Dev nD) (t : Fin cfg2.N) : (dat V c).after 1 t = iblk V c 1 t := by dsimp only [dat]
theorem after_out (c : Dev nD) (t : Fin cfg2.N) : (dat V c).after 2 t = out (iblk V c 0 t) (iblk V c 1 t) := by dsimp only [dat]

theorem before_lhs (c : Dev nD) (t : Fin cfg2.N) (d) : (dat V c).before 0 t d = iblk V c 0 t :=
  before_lhs_of V (dat V c) (A_eq V c 0) (after_lhs V c) t d
theorem before_rhs (c : Dev nD) (t : Fin cfg2.N) (d) : (dat V c).before 1 t d = iblk V c 1 t :=
  before_rhs_of V (dat V c) (A_eq V c 1) (after_rhs V c) t d

/-- What the body is called with at point t, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the operands' buffers hold their blocks, so the run above applies; the invariant and what
    the core owes pass through untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_lhs, before_rhs]
  rw [show (dat V c).Φ t.succ = (dat V c).Φ t.castSucc from rfl,
    show (dat V c).owesAt () t.succ = (dat V c).owesAt () t.castSucc from rfl,
    after_lhs, after_rhs, after_out]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Rgn2

end
-- ==== Proof.KiChain.lean ====
/-
  The core's buffer contents at every boundary between the program's nine segments (six stretches of host operations and
  three matrix-product regions), as a fold from the launch memory: a host stretch applies its operations; a region leaves
  its output array at what its write-backs assemble and every other buffer as it found it. Then: a buffer no segment
  writes keeps its launch contents, so every argument ends as launched.
-/
import proofs.«152676_j68221260529797_1_alg».proof.Proof.Gen.KernelIdeal.Regions
import proofs.«152676_j68221260529797_1_alg».proof.Proof.KiRegion0
import proofs.«152676_j68221260529797_1_alg».proof.Proof.KiRegion1
import proofs.«152676_j68221260529797_1_alg».proof.Proof.KiRegion2

set_option maxRecDepth 16384

noncomputable section

namespace Cert.KernelIdeal.Chain

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) :=
  fun c b => W c b

/-- At launch. -/
abbrev W0 : Dev nD → Valuation τ sig (Elt F) := fun c b => m (c, b)
/-- After the first host stretch: what region 0 is entered from. -/
abbrev W1 : Dev nD → Valuation τ sig (Elt F) := fun c => StableHlo.after hostOps0 (W0 m c)
/-- After region 0. -/
def W2 (c : Dev nD) : Valuation τ sig (Elt F) :=
  Pipeline.withArrays spec0 c (W1 m c) fun w => (Rgn0.dat (atRefs (W1 m)) c).arrAt w cfg0.N
/-- After the second host stretch, -/
abbrev W3 : Dev nD → Valuation τ sig (Elt F) := fun c => StableHlo.after hostOps1 (W2 m c)
/-- and the third: what region 1 is entered from. -/
abbrev W4 : Dev nD → Valuation τ sig (Elt F) := fun c => StableHlo.after hostOps1_1 (W3 m c)
/-- After region 1. -/
def W5 (c : Dev nD) : Valuation τ sig (Elt F) :=
  Pipeline.withArrays spec1 c (W4 m c) fun w => (Rgn1.dat (atRefs (W4 m)) c).arrAt w cfg1.N
/-- After the fourth host stretch, -/
abbrev W6 : Dev nD → Valuation τ sig (Elt F) := fun c => StableHlo.after hostOps2 (W5 m c)
/-- and the fifth: what region 2 is entered from. -/
abbrev W7 : Dev nD → Valuation τ sig (Elt F) := fun c => StableHlo.after hostOps2_1 (W6 m c)
/-- After region 2. -/
def W8 (c : Dev nD) : Valuation τ sig (Elt F) :=
  Pipeline.withArrays spec2 c (W7 m c) fun w => (Rgn2.dat (atRefs (W7 m)) c).arrAt w cfg2.N
/-- After the last host stretch: the end. -/
abbrev W9 : Dev nD → Valuation τ sig (Elt F) := fun c => StableHlo.after hostOps3 (W8 m c)

/-! ## What a region leaves -/

theorem W2_arr (c : Dev nD) (w : Fin cfg0.W) :
    W2 m c (Proc.devRef .tc (Pipeline.arrRef spec0 w)) = (Rgn0.dat (atRefs (W1 m)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W5_arr (c : Dev nD) (w : Fin cfg1.W) :
    W5 m c (Proc.devRef .tc (Pipeline.arrRef spec1 w)) = (Rgn1.dat (atRefs (W4 m)) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
theorem W8_arr (c : Dev nD) (w : Fin cfg2.W) :
    W8 m c (Proc.devRef .tc (Pipeline.arrRef spec2 w)) = (Rgn2.dat (atRefs (W7 m)) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb

/-- A region's operand arrays come out as they went in (only its result's array is written back). -/
theorem W2_lhs (c : Dev nD) : W2 m c (Proc.devRef .tc main_arg0) = W1 m c (Proc.devRef .tc main_arg0) :=
  (W2_arr m c 0).trans (((Rgn0.dat (atRefs (W1 m)) c).arrAt_in 0 rfl _).trans (Rgn0.A_eq (atRefs (W1 m)) c 0))
theorem W2_rhs (c : Dev nD) : W2 m c (Proc.devRef .tc main_arg3) = W1 m c (Proc.devRef .tc main_arg3) :=
  (W2_arr m c 1).trans (((Rgn0.dat (atRefs (W1 m)) c).arrAt_in 1 rfl _).trans (Rgn0.A_eq (atRefs (W1 m)) c 1))
theorem W5_rhs (c : Dev nD) : W5 m c (Proc.devRef .tc main_arg5) = W4 m c (Proc.devRef .tc main_arg5) :=
  (W5_arr m c 1).trans (((Rgn1.dat (atRefs (W4 m)) c).arrAt_in 1 rfl _).trans (Rgn1.A_eq (atRefs (W4 m)) c 1))

/-! ## What a host stretch leaves alone -/

theorem W1_keep (c : Dev nD) (r : Ref sig .tc) (h : r ∉ hostOps0_W) : W1 m c r = W0 m c r :=
  StableHlo.after_of_writes_sub hostOps0 _ hostOps0_writes h
theorem W3_keep (c : Dev nD) (r : Ref sig .tc) (h : r ∉ hostOps1_W) : W3 m c r = W2 m c r :=
  StableHlo.after_of_writes_sub hostOps1 _ hostOps1_writes h
theorem W4_keep (c : Dev nD) (r : Ref sig .tc) (h : r ∉ hostOps1_1_W) : W4 m c r = W3 m c r :=
  StableHlo.after_of_writes_sub hostOps1_1 _ hostOps1_1_writes h
theorem W6_keep (c : Dev nD) (r : Ref sig .tc) (h : r ∉ hostOps2_W) : W6 m c r = W5 m c r :=
  StableHlo.after_of_writes_sub hostOps2 _ hostOps2_writes h
theorem W7_keep (c : Dev nD) (r : Ref sig .tc) (h : r ∉ hostOps2_1_W) : W7 m c r = W6 m c r :=
  StableHlo.after_of_writes_sub hostOps2_1 _ hostOps2_1_writes h
theorem W9_keep (c : Dev nD) (r : Ref sig .tc) (h : r ∉ hostOps3_W) : W9 m c r = W8 m c r :=
  StableHlo.after_of_writes_sub hostOps3 _ hostOps3_writes h

/-- A buffer that no host stretch writes and every region hands back as found holds its launch contents at the end. -/
theorem W9_launch (c : Dev nD) (r : Ref sig .tc)
    (h0 : r ∉ hostOps0_W) (h1 : r ∉ hostOps1_W) (h11 : r ∉ hostOps1_1_W) (h2 : r ∉ hostOps2_W) (h21 : r ∉ hostOps2_1_W) (h3 : r ∉ hostOps3_W)
    (k0 : W2 m c r = W1 m c r) (k1 : W5 m c r = W4 m c r) (k2 : W8 m c r = W7 m c r) :
    W9 m c r = m ((c : Thread nD τ).loc r) :=
  (W9_keep m c r h3).trans <| k2.trans <| (W7_keep m c r h21).trans <| (W6_keep m c r h2).trans <| k1.trans <|
    (W4_keep m c r h11).trans <| (W3_keep m c r h1).trans <| k0.trans <| (W1_keep m c r h0).trans rfl

theorem W9_main_arg0 (c : Dev nD) : W9 m c main_arg0 = m ((c : Thread nD τ).loc main_arg0) :=
  W9_launch m c main_arg0 (by decide) (by decide) (by decide) (by decide) (by decide) (by decide)
    (W2_lhs m c) (W5_of_ne m c main_arg0 (by decide)) (W8_of_ne m c main_arg0 (by decide))
theorem W9_main_arg1 (c : Dev nD) : W9 m c main_arg1 = m ((c : Thread nD τ).loc main_arg1) :=
  W9_launch m c main_arg1 (by decide) (by decide) (by decide) (by decide) (by decide) (by decide)
    (W2_of_ne m c main_arg1 (by decide)) (W5_of_ne m c main_arg1 (by decide)) (W8_of_ne m c main_arg1 (by decide))
theorem W9_main_arg2 (c : Dev nD) : W9 m c main_arg2 = m ((c : Thread nD τ).loc main_arg2) :=
  W9_launch m c main_arg2 (by decide) (by decide) (by decide) (by decide) (by decide) (by decide)
    (W2_of_ne m c main_arg2 (by decide)) (W5_of_ne m c main_arg2 (by decide)) (W8_of_ne m c main_arg2 (by decide))
theorem W9_main_arg3 (c : Dev nD) : W9 m c main_arg3 = m ((c : Thread nD τ).loc main_arg3) :=
  W9_launch m c main_arg3 (by decide) (by decide) (by decide) (by decide) (by decide) (by decide)
    (W2_rhs m c) (W5_of_ne m c main_arg3 (by decide)) (W8_of_ne m c main_arg3 (by decide))
theorem W9_main_arg4 (c : Dev nD) : W9 m c main_arg4 = m ((c : Thread nD τ).loc main_arg4) :=
  W9_launch m c main_arg4 (by decide) (by decide) (by decide) (by decide) (by decide) (by decide)
    (W2_of_ne m c main_arg4 (by decide)) (W5_of_ne m c main_arg4 (by decide)) (W8_of_ne m c main_arg4 (by decide))
theorem W9_main_arg5 (c : Dev nD) : W9 m c main_arg5 = m ((c : Thread nD τ).loc main_arg5) :=
  W9_launch m c main_arg5 (by decide) (by decide) (by decide) (by decide) (by decide) (by decide)
    (W2_of_ne m c main_arg5 (by decide)) (W5_rhs m c) (W8_of_ne m c main_arg5 (by decide))
theorem W9_main_arg6 (c : Dev nD) : W9 m c main_arg6 = m ((c : Thread nD τ).loc main_arg6) :=
  W9_launch m c main_arg6 (by decide) (by decide) (by decide) (by decide) (by decide) (by decide)
    (W2_of_ne m c main_arg6 (by decide)) (W5_of_ne m c main_arg6 (by decide)) (W8_of_ne m c main_arg6 (by decide))
theorem W9_main_arg7 (c : Dev nD) : W9 m c main_arg7 = m ((c : Thread nD τ).loc main_arg7) :=
  W9_launch m c main_arg7 (by decide) (by decide) (by decide) (by decide) (by decide) (by decide)
    (W2_of_ne m c main_arg7 (by decide)) (W5_of_ne m c main_arg7 (by decide)) (W8_of_ne m c main_arg7 (by decide))
theorem W9_main_arg8 (c : Dev nD) : W9 m c main_arg8 = m ((c : Thread nD τ).loc main_arg8) :=
  W9_launch m c main_arg8 (by decide) (by decide) (by decide) (by decide) (by decide) (by decide)
    (W2_of_ne m c main_arg8 (by decide)) (W5_of_ne m c main_arg8 (by decide)) (W8_of_ne m c main_arg8 (by decide))

end Cert.KernelIdeal.Chain

end
-- ==== Proof.KiRun.lean ====
/-
  The program's run: its nine segments — six stretches of host operations and the three matrix-product regions — as the
  launch theorem's segment list, each region's record over the thread state "every unscoped buffer at the boundary's contents,
  the generator register at some state, nothing owed", and the conclusion that every weakly fair execution from any memory
  terminates with every unscoped buffer at the last boundary's contents.
-/
import proofs.«152676_j68221260529797_1_alg».proof.Proof.KiChain

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Rgn0.dat (atRefs (W1 m)) c
  | ⟨1, _⟩ => fun c => Rgn1.dat (atRefs (W4 m)) c
  | ⟨2, _⟩ => fun c => Rgn2.dat (atRefs (W7 m)) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W9 m c) ∗ ∃ r, prngReg c r)

-- a library lemma stated over the pinned configuration unifies with the printed one only when unification may unfold plain
-- definitions in a metavariable's type
set_option backward.isDefEq.respectTransparency.types false in
/-- Region 0 over the thread state: entered with every unscoped buffer at W1, left with them at W2. Its three
    arrays are split out of the unscoped buffers on entry and put back, the result's at what the write-backs assembled, on exit;
    the generator register goes into the pipeline's invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Rgn0.body_obligation (atRefs (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atRefs (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (W1 m) c) (atRefs (W2 m) c) ((pdats m 0 c).arrAt · cfg0.N)
      (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state: entered with every unscoped buffer at W4, left with them at W5. Its three
    arrays are split out of the unscoped buffers on entry and put back, the result's at what the write-backs assembled, on exit;
    the generator register goes into the pipeline's invariant and comes back; nothing is owed; the kernel has no semaphore of
    its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Rgn1.body_obligation (atRefs (W4 m)) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (atRefs (W4 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (W4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (W4 m) c) (atRefs (W5 m) c) ((pdats m 1 c).arrAt · cfg1.N)
      (fun w => (W5_arr m c w).symm)
      (fun b hb => W5_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 over the thread state: entered with every unscoped buffer at W7, left with them at W8. Its three
    arrays are split out of the unscoped buffers on entry and put back, the result's at what the write-backs assembled, on exit;
    the generator register goes into the pipeline's invariant and comes back; nothing is owed; the kernel has no semaphore of
    its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Rgn2.body_obligation (atRefs (W7 m)) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (atRefs (W7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (W7 m) c) (atRefs (W8 m) c) ((pdats m 2 c).arrAt · cfg2.N)
      (fun w => (W8_arr m c w).symm)
      (fun b hb => W8_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's nine segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)),
    .host (hseg hostOps2_1 hostOps2_1_sub hostOps2_1_fresh (W6 m)),
    .region (reg2 m),
    .host (hseg hostOps3 hostOps3_sub hostOps3_fresh (W8 m)) ]
/-- The program is the run of its segments. -/
theorem main_run (c : Dev nD) : main (F := F) c = Pipeline.Seg.run (segs m) := (main_chain c).trans (by chain_rfl)

set_option backward.isDefEq.respectTransparency.types false in
/-- From any memory with zero counters every weakly fair execution of the program terminates, nothing faulting, with every
    unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun c => by
        show iprop(StableHlo.held (c : Thread nD τ) (Pipeline.ucRefs τ sig) (W9 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c)⟩)
    (run m ρ)

end Cert.KernelIdeal.Chain

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KiProd0.lean ====
/-
  Region 0's output array after the region, at the exact extended reals: the plain matrix product of the two operand arrays
  as the region finds them. Each grid point t writes back rows 2000·t … 2000·t + 1999 of that product (its block of rows of
  the left operand times the whole right operand; narrowing to bf16 is the identity here), and the 25 blocks tile the array.
-/
import proofs.«152676_j68221260529797_1_alg».proof.Proof.KiRegion0
import proofs.«152676_j68221260529797_1_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Rgn0

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The plain product of a 50000×256 array by a 256×128 array, index by index. -/
def prodFn (l : FVec Ideal S50000x256 .f32) (r : FVec Ideal S256x128 .f32) : FVec Ideal S50000x128 .f32 :=
  fun i => ∑ k : Fin 256, l (ix2 (i 0) k) * r (ix2 k (i 1))

theorem hz : (![0, 0] : Fin 2 → Nat) = fun _ => 0 := funext fun a => by fin_cases a <;> rfl

/-- The stored value at (p, q): the sum over k of the left block at (p, k) times the right operand at (k, q). -/
theorem pay_apply (x0 : Vec Ideal S2000x256 .f32) (x1 : Vec Ideal S256x128 .f32) (p : Fin 2000) (q : Fin 128) :
    k0_pay1 (F := Ideal) x0 x1 (ix2 p q) = ∑ k : Fin 256, x0 (ix2 p k) * x1 (ix2 k q) := by
  unfold k0_pay1
  try rw [shapeCast_self]
  try rw [shapeCast_self]
  exact Cert.Matmul.matmul_plain_apply (M := 2000) (K := 256) (N := 128) (φ₁ := .bf16) (φ₂ := .bf16) none x0 x1 p q

/-- The printed index maps over the grid: the left operand's and the output's blocks are block t of rows, the right operand's
    is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 25 := by have h := t.isLt; have hN : cfg0.N = 25 := N_0; omega

theorem prodFn_apply (l : FVec Ideal S50000x256 .f32) (r : FVec Ideal S256x128 .f32) (p : Fin 50000) (q : Fin 128) :
    prodFn l r (ix2 p q) = ∑ k : Fin 256, l (ix2 p k) * r (ix2 k q) := rfl

/-- The left operand's staged block at (p, k) is the array at row 2000·t + p, column k. -/
theorem lhs_blk (c : Dev nD) (t : Fin cfg0.N) (p : Fin 2000) (k : Fin 256) (r : Fin 50000) (hr : r.val = t.val * 2000 + p.val) :
    iblk V c 0 t (ix2 p k) = V c main_arg0 (ix2 r k) := by
  obtain ⟨e0, e1, -, -, -, -⟩ := idx_facts t
  show V c main_arg0 (((cfg0.win 0).blk t).view.emb (ix2 p k)) = V c main_arg0 (ix2 r k)
  refine congrArg _ ?_
  funext a; apply Fin.ext
  match a with
  | ⟨0, _⟩ => show win0_0.index t (0 : Fin 2) * 2000 + 1 * p.val = r.val; omega
  | ⟨1, _⟩ => show win0_0.index t (1 : Fin 2) * 256 + 1 * k.val = k.val; omega

/-- The right operand's staged block is the whole right operand. -/
theorem rhs_blk (c : Dev nD) (t : Fin cfg0.N) (k : Fin 256) (q : Fin 128) :
    iblk V c 1 t (ix2 k q) = V c main_arg3 (ix2 k q) := by
  obtain ⟨-, -, e2, e3, -, -⟩ := idx_facts t
  show V c main_arg3 (((cfg0.win 1).blk t).view.emb (ix2 k q)) = V c main_arg3 (ix2 k q)
  refine congrArg _ ?_
  funext a; apply Fin.ext
  match a with
  | ⟨0, _⟩ => show win0_1.index t (0 : Fin 2) * 256 + 1 * k.val = k.val; omega
  | ⟨1, _⟩ => show win0_1.index t (1 : Fin 2) * 128 + 1 * q.val = q.val; omega

/-- What point t writes back is block t of the product. -/
theorem flushed_eq (c : Dev nD) (t : Fin cfg0.N) :
    (dat V c).flushed 2 t = ((cfg0.win 2).blk t).view.read (Elt Ideal) (prodFn (V c main_arg0) (V c main_arg3)) := by
  show (cfg0.win 2).cut (grid0.coords t) ((dat V c).after 2 t) = _
  rw [after_out]
  unfold out
  rw [View.canon_unit_zero hz]
  simp only [View.ld_unit_zero (S := S2000x256) hz, View.ld_unit_zero (S := S256x128) hz]
  obtain ⟨-, -, -, -, e4, e5⟩ := idx_facts t
  have ht := t_lt t
  funext j
  obtain ⟨p, q, rfl⟩ : ∃ (p : Fin 2000) (q : Fin 128), j = ix2 p q := ⟨j 0, j 1, eq_ix2 j⟩
  have hr : t.val * 2000 + p.val < 50000 := by have := p.isLt; omega
  show k0_pay1 (F := Ideal) (iblk V c 0 t) (iblk V c 1 t) (ix2 p q)
    = prodFn (V c main_arg0) (V c main_arg3) (((cfg0.win 2).blk t).view.emb (ix2 p q))
  rw [pay_apply]
  have hemb : ((cfg0.win 2).blk t).view.emb (ix2 p q) = ix2 (⟨t.val * 2000 + p.val, hr⟩ : Fin 50000) q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  rw [hemb, prodFn_apply]
  refine Finset.sum_congr rfl fun k _ => ?_
  rw [lhs_blk V c t p k ⟨t.val * 2000 + p.val, hr⟩ rfl, rhs_blk V c t k q]

/-- An index of the array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v34).slice (win0_2.rect t)).set ↔ _
  rw [View.set_slice_whole, Rect.mem_set_unit]
  exact Iff.rfl

/-- Every row of the array lies in the block of the point numbered by that row's quotient by 2000. -/
theorem blocks_cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, e4, e5⟩ := idx_facts t
  have e4' : win0_2.index t (0 : Fin 2) = (i 0).val / 2000 := e4
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region is the product of the two operand arrays as the region found them. -/
theorem arr_out (c : Dev nD) : (dat V c).arrAt 2 cfg0.N = prodFn (V c main_arg0) (V c main_arg3) :=
  (dat V c).arrAt_eq_of_cover 2 _ (fun t _ => flushed_eq V c t) blocks_cover

end Cert.KernelIdeal.Rgn0

end
-- ==== Proof.KiProd1.lean ====
/-
  Region 1's output array after the region, at the exact extended reals: the plain matrix product of the two operand arrays
  as the region finds them. Each grid point t writes back rows 2000·t … 2000·t + 1999 of that product (its block of rows of
  the left operand times the whole right operand; narrowing to bf16 is the identity here), and the 25 blocks tile the array.
-/
import proofs.«152676_j68221260529797_1_alg».proof.Proof.KiRegion1
import proofs.«152676_j68221260529797_1_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Rgn1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The plain product of a 50000×128 array by a 128×128 array, index by index. -/
def prodFn (l : FVec Ideal S50000x128 .f32) (r : FVec Ideal S128x128 .f32) : FVec Ideal S50000x128 .f32 :=
  fun i => ∑ k : Fin 128, l (ix2 (i 0) k) * r (ix2 k (i 1))

theorem hz : (![0, 0] : Fin 2 → Nat) = fun _ => 0 := funext fun a => by fin_cases a <;> rfl

/-- The stored value at (p, q): the sum over k of the left block at (p, k) times the right operand at (k, q). -/
theorem pay_apply (x0 : Vec Ideal S2000x128 .f32) (x1 : Vec Ideal S128x128 .f32) (p : Fin 2000) (q : Fin 128) :
    k1_pay1 (F := Ideal) x0 x1 (ix2 p q) = ∑ k : Fin 128, x0 (ix2 p k) * x1 (ix2 k q) := by
  unfold k1_pay1
  try rw [shapeCast_self]
  try rw [shapeCast_self]
  exact Cert.Matmul.matmul_plain_apply (M := 2000) (K := 128) (N := 128) (φ₁ := .bf16) (φ₂ := .bf16) none x0 x1 p q

/-- The printed index maps over the grid: the left operand's and the output's blocks are block t of rows, the right operand's
    is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem t_lt (t : Fin cfg1.N) : t.val < 25 := by have h := t.isLt; have hN : cfg1.N = 25 := N_1; omega

theorem prodFn_apply (l : FVec Ideal S50000x128 .f32) (r : FVec Ideal S128x128 .f32) (p : Fin 50000) (q : Fin 128) :
    prodFn l r (ix2 p q) = ∑ k : Fin 128, l (ix2 p k) * r (ix2 k q) := rfl

/-- The left operand's staged block at (p, k) is the array at row 2000·t + p, column k. -/
theorem lhs_blk (c : Dev nD) (t : Fin cfg1.N) (p : Fin 2000) (k : Fin 128) (r : Fin 50000) (hr : r.val = t.val * 2000 + p.val) :
    iblk V c 0 t (ix2 p k) = V c main_v58 (ix2 r k) := by
  obtain ⟨e0, e1, -, -, -, -⟩ := idx_facts t
  show V c main_v58 (((cfg1.win 0).blk t).view.emb (ix2 p k)) = V c main_v58 (ix2 r k)
  refine congrArg _ ?_
  funext a; apply Fin.ext
  match a with
  | ⟨0, _⟩ => show win1_0.index t (0 : Fin 2) * 2000 + 1 * p.val = r.val; omega
  | ⟨1, _⟩ => show win1_0.index t (1 : Fin 2) * 128 + 1 * k.val = k.val; omega

/-- The right operand's staged block is the whole right operand. -/
theorem rhs_blk (c : Dev nD) (t : Fin cfg1.N) (k : Fin 128) (q : Fin 128) :
    iblk V c 1 t (ix2 k q) = V c main_arg5 (ix2 k q) := by
  obtain ⟨-, -, e2, e3, -, -⟩ := idx_facts t
  show V c main_arg5 (((cfg1.win 1).blk t).view.emb (ix2 k q)) = V c main_arg5 (ix2 k q)
  refine congrArg _ ?_
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- What point t writes back is block t of the product. -/
theorem flushed_eq (c : Dev nD) (t : Fin cfg1.N) :
    (dat V c).flushed 2 t = ((cfg1.win 2).blk t).view.read (Elt Ideal) (prodFn (V c main_v58) (V c main_arg5)) := by
  show (cfg1.win 2).cut (grid1.coords t) ((dat V c).after 2 t) = _
  rw [after_out]
  unfold out
  rw [View.canon_unit_zero hz]
  simp only [View.ld_unit_zero (S := S2000x128) hz, View.ld_unit_zero (S := S128x128) hz]
  obtain ⟨-, -, -, -, e4, e5⟩ := idx_facts t
  have ht := t_lt t
  funext j
  obtain ⟨p, q, rfl⟩ : ∃ (p : Fin 2000) (q : Fin 128), j = ix2 p q := ⟨j 0, j 1, eq_ix2 j⟩
  have hr : t.val * 2000 + p.val < 50000 := by have := p.isLt; omega
  show k1_pay1 (F := Ideal) (iblk V c 0 t) (iblk V c 1 t) (ix2 p q)
    = prodFn (V c main_v58) (V c main_arg5) (((cfg1.win 2).blk t).view.emb (ix2 p q))
  rw [pay_apply]
  have hemb : ((cfg1.win 2).blk t).view.emb (ix2 p q) = ix2 (⟨t.val * 2000 + p.val, hr⟩ : Fin 50000) q := by
    funext a; apply Fin.ext
    match a with
    | ⟨0, _⟩ => show win1_2.index t (0 : Fin 2) * 2000 + 1 * p.val = t.val * 2000 + p.val; omega
    | ⟨1, _⟩ => show win1_2.index t (1 : Fin 2) * 128 + 1 * q.val = q.val; omega
  rw [hemb, prodFn_apply]
  refine Finset.sum_congr rfl fun k _ => ?_
  rw [lhs_blk V c t p k ⟨t.val * 2000 + p.val, hr⟩ rfl, rhs_blk V c t k q]

/-- An index of the array is in point t's block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v59).slice (win1_2.rect t)).set ↔ _
  rw [View.set_slice_whole, Rect.mem_set_unit]
  exact Iff.rfl

/-- Every row of the array lies in the block of the point numbered by that row's quotient by 2000. -/
theorem blocks_cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, e4, e5⟩ := idx_facts t
  have e4' : win1_2.index t (0 : Fin 2) = (i 0).val / 2000 := e4
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The output array after the region is the product of the two operand arrays as the region found them. -/
theorem arr_out (c : Dev nD) : (dat V c).arrAt 2 cfg1.N = prodFn (V c main_v58) (V c main_arg5) :=
  (dat V c).arrAt_eq_of_cover 2 _ (fun t _ => flushed_eq V c t) blocks_cover

end Cert.KernelIdeal.Rgn1

end
-- ==== Proof.PreDst.lean ====
/-
  The precondition's last conjunct — every destination index of the edge list is nonnegative — read out of the printed
  predicate, and what the aggregation uses of it: adding 50000 to the negative destination indices changes nothing, since
  there are none.
-/
import proofs.«152676_j68221260529797_1_alg».proof.Pre_finite_inputs
import Idealize.ShloMosaic.Lib.ReduceAll
import Idealize.ShloMosaic.Lib.ValueIdx

noncomputable section

namespace Cert.PreDst

open Idealize.ShloMosaic Cert.Pre_finite_inputs

variable {F : FTy → Type} [FloatOps F] [hF : Cert.Pre_finite_inputs.Facts]

instance : Subsingleton S_.Idx := ⟨fun a b => funext fun d => d.elim0⟩

/-- The destination row of the edge list, as the predicate slices it out. -/
def dstOf (a1 : IVec S2x1600000 32) : IVec S1600000 32 :=
  shapeCast S1600000 (extractStridedSlice S1x1600000 ![1, 0] a1 hF.slices_S2x1600000_S1x1600000_1_0) hF.shapeCasts_S1x1600000_S1600000

/-- Under the precondition every destination index compares greater than or equal to zero, signed. -/
theorem dst_sge (a0 : FVec F S50000x256 .f32) (a1 : IVec S2x1600000 32) (a2 : IVec S3x200000 32) (a3 : FVec F S256x128 .f32)
    (a4 : FVec F S128 .f32) (a5 : FVec F S128x128 .f32) (a6 : FVec F S128 .f32) (a7 : FVec F S384x1 .f32) (a8 : FVec F S1 .f32)
    (h : fn (F := F) a0 a1 a2 a3 a4 a5 a6 a7 a8 = fun _ => 1#1) (i : S1600000.Idx) :
    IntOp.cmpi .sge (dstOf a1 i) 0#32 = 1#1 := by
  have e := congrFun h ValueIdx.ix0
  dsimp only [fn, fn_part1, fn_part2] at e
  have e2 := (IntOp.andi_eq_one.1 e).2
  exact Host.reduce_andi_all _ _ _ _ _ e2 i

/-- A word that compares ≥ 0 does not compare < 0. -/
theorem not_slt_of_sge (x : BitVec 32) (h : IntOp.cmpi .sge x 0#32 = 1#1) : IntOp.cmpi .slt x 0#32 ≠ 1#1 := by
  unfold IntOp.cmpi at h ⊢
  dsimp only at h ⊢
  intro h'
  have h1 : (0#32).sle x = true := by cases hb : (0#32).sle x <;> simp_all
  have h2 : x.slt 0#32 = true := by cases hb : x.slt 0#32 <;> simp_all
  rw [BitVec.sle_eq_not_slt] at h1
  simp_all

/-- Where every index is nonnegative, the select that adds n to the negative ones returns the indices. -/
theorem select_neg_eq (d z n : IVec S1600000 32) (hz : ∀ i, z i = 0#32) (h : ∀ i, IntOp.cmpi .sge (d i) 0#32 = 1#1) :
    select (cmpi .slt d z) (addi d n) d = d := by
  funext i
  show Scalar.select (IntOp.cmpi .slt (d i) (z i)) (IntOp.addi (d i) (n i)) (d i) = d i
  rw [hz i]
  unfold Scalar.select
  exact if_neg (not_slt_of_sge (d i) (h i))

end Cert.PreDst

end
-- ==== Proof.KiStagesA.lean ====
/-
  The idealized kernel's intermediate arrays, stage by stage, against the reference's (first part: up to the first layer
  before its relu). The host operations around the regions are the reference's own operations on the same values, so each stage's
  array is the reference's once its inputs are; the matrix-product regions leave the plain product, which is what the
  reference's dot_general computes over the exact extended reals; and the one place the two programs differ — the kernel adds
  50000 to negative destination indices before scattering, the reference does not — is void under the precondition, which
  says there are none.
-/
import proofs.«152676_j68221260529797_1_alg».proof.Proof.KiChain
import proofs.«152676_j68221260529797_1_alg».proof.Proof.KiProd0
import proofs.«152676_j68221260529797_1_alg».proof.Proof.KiProd1
import proofs.«152676_j68221260529797_1_alg».proof.Proof.PreDst
import proofs.«152676_j68221260529797_1_alg».proof.Proof.Gen.Pre_finite_inputs
import proofs.«152676_j68221260529797_1_alg».proof.Proof.Gen.ReferenceIdeal.Read
import Idealize.ShloMosaic.Lib.StableHlo.Run

set_option maxRecDepth 16384

noncomputable section

namespace Cert.KernelIdeal.Stages

open Cert.KernelIdeal Cert.KernelIdeal.Gen Cert.KernelIdeal.Chain
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The arguments' launch contents on core c. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)
abbrev a8 (c : Dev nD) := m ((c.tc : Thread nD τ).loc main_arg8)

/-- The precondition, as the claims state it of the kernel's memory. -/
def Pre : Prop := ∀ c : Dev nD,
  Cert.Pre_finite_inputs.fn (F := Ideal) (a0 m c) (a1 m c) (a2 m c) (a3 m c) (a4 m c) (a5 m c) (a6 m c) (a7 m c) (a8 m c) = fun _ => 1#1

/-! ## After the first host stretch: the edge list's two rows and the two normalisation coefficients -/

theorem src1 (c : Dev nD) : W1 m c main_v1 = Cert.ReferenceIdeal.Read.val_main_v1 (F := Ideal) (a1 m c) := by
  show StableHlo.after hostOps0 (W0 m c) (Proc.devRef .tc main_v1) = _
  after_results_simp
  rfl
theorem dst1 (c : Dev nD) : W1 m c main_v3 = Cert.ReferenceIdeal.Read.val_main_v3 (F := Ideal) (a1 m c) := by
  show StableHlo.after hostOps0 (W0 m c) (Proc.devRef .tc main_v3) = _
  after_results_simp
  rfl
set_option maxHeartbeats 4000000 in
theorem ecoef1 (c : Dev nD) : W1 m c main_v31 = Cert.ReferenceIdeal.Read.val_main_v31 (F := Ideal) (a1 m c) := by
  show StableHlo.after hostOps0 (W0 m c) (Proc.devRef .tc main_v31) = _
  after_results_simp
  rfl
set_option maxHeartbeats 4000000 in
theorem scoef1 (c : Dev nD) : W1 m c main_v33 = Cert.ReferenceIdeal.Read.val_main_v33 (F := Ideal) (a1 m c) := by
  show StableHlo.after hostOps0 (W0 m c) (Proc.devRef .tc main_v33) = _
  after_results_simp
  rfl

/-! ## The first product -/

/-- The reference's first dot_general is the plain product. -/
theorem dot0 (x0 : FVec Ideal S50000x256 .f32) (x3 : FVec Ideal S256x128 .f32) :
    Cert.ReferenceIdeal.Read.val_main_v34 (F := Ideal) x0 x3 = Rgn0.prodFn x0 x3 := by
  funext i
  obtain ⟨p, q, rfl⟩ : ∃ (p : Fin 50000) (q : Fin 128), i = ix2 p q := ⟨i 0, i 1, eq_ix2 i⟩
  rw [Rgn0.prodFn_apply]
  exact Cert.Matmul.dotGeneral_plain_apply (M := 50000) (K := 256) (N := 128) none .single x0 x3 p q

theorem prod0 (c : Dev nD) : W2 m c main_v34 = Cert.ReferenceIdeal.Read.val_main_v34 (F := Ideal) (a0 m c) (a3 m c) := by
  refine (W2_arr m c 2).trans ((Rgn0.arr_out (atRefs (W1 m)) c).trans ?_)
  rw [dot0]
  show Rgn0.prodFn (W1 m c main_arg0) (W1 m c main_arg3) = _
  rw [W1_keep m c main_arg0 (by decide), W1_keep m c main_arg3 (by decide)]

/-! ## What the later stretches read of the earlier ones, carried across the segments that do not write it -/

theorem src2 (c : Dev nD) : W2 m c main_v1 = Cert.ReferenceIdeal.Read.val_main_v1 (F := Ideal) (a1 m c) :=
  (W2_of_ne m c main_v1 (by decide)).trans (src1 m c)
theorem dst2 (c : Dev nD) : W2 m c main_v3 = Cert.ReferenceIdeal.Read.val_main_v3 (F := Ideal) (a1 m c) :=
  (W2_of_ne m c main_v3 (by decide)).trans (dst1 m c)
theorem ecoef2 (c : Dev nD) : W2 m c main_v31 = Cert.ReferenceIdeal.Read.val_main_v31 (F := Ideal) (a1 m c) :=
  (W2_of_ne m c main_v31 (by decide)).trans (ecoef1 m c)
theorem scoef2 (c : Dev nD) : W2 m c main_v33 = Cert.ReferenceIdeal.Read.val_main_v33 (F := Ideal) (a1 m c) :=
  (W2_of_ne m c main_v33 (by decide)).trans (scoef1 m c)
theorem bias2 (c : Dev nD) : W2 m c main_arg4 = a4 m c :=
  (W2_of_ne m c main_arg4 (by decide)).trans (W1_keep m c main_arg4 (by decide))

/-! ## The destination indices are nonnegative -/

theorem dst_sge (h : Pre m) (c : Dev nD) (i : S1600000.Idx) :
    IntOp.cmpi .sge (Cert.ReferenceIdeal.Read.val_main_v3 (F := Ideal) (a1 m c) i) 0#32 = 1#1 :=
  Cert.PreDst.dst_sge (F := Ideal) _ _ _ _ _ _ _ _ _ (h c) i

/-- Selecting "index + 50000" where the index is negative, over indices that are all nonnegative, is the indices. -/
theorem norm_dst (d : IVec S1600000 32) (h : ∀ i, IntOp.cmpi .sge (d i) 0#32 = 1#1)
    (hb hb' : S_.BroadcastsInDim S1600000 (![] : Fin 0 → Fin S1600000.rank)) :
    select (cmpi .slt d (broadcastInDim S1600000 ![] hb (constantI S_ 32 0#32)))
      (addi d (broadcastInDim S1600000 ![] hb' (constantI S_ 32 50000#32))) d = d :=
  Cert.PreDst.select_neg_eq d _ _ (fun _ => rfl) h

/-! ## The first layer -/

set_option maxHeartbeats 8000000 in
/-- The first layer before its relu is the reference's. -/
theorem layer1 (h : Pre m) (c : Dev nD) :
    W3 m c main_v57 = Cert.ReferenceIdeal.Read.val_main_v52 (F := Ideal) (a0 m c) (a1 m c) (a3 m c) (a4 m c) := by
  show StableHlo.after hostOps1 (W2 m c) (Proc.devRef .tc main_v57) = _
  after_results_simp
  rw [prod0 m c, src2 m c, dst2 m c, ecoef2 m c, scoef2 m c, bias2 m c]
  rw [norm_dst _ (dst_sge m h c)]
  rfl

end Cert.KernelIdeal.Stages

end
-- ==== Proof.KiStagesB.lean ====
/-
  The idealized kernel's intermediate arrays against the reference's, the relu and the second matrix product, and what the
  fourth host stretch reads of the earlier ones.
-/
import proofs.«152676_j68221260529797_1_alg».proof.Proof.KiStagesA

set_option maxRecDepth 16384

noncomputable section

namespace Cert.KernelIdeal.Stages

open Cert.KernelIdeal Cert.KernelIdeal.Gen Cert.KernelIdeal.Chain
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The relu and the second product -/

/-- The relu's three operations, from any contents: the maximum of the layer with zero. -/
theorem relu_of (U : Valuation τ sig (Elt Ideal)) :
    StableHlo.after hostOps1_1 U (Proc.devRef .tc main_v58)
      = maximumf (U (Proc.devRef .tc main_v57)) (broadcastInDim S50000x128 ![] bcast_S_S50000x128 (constant (F := Ideal) S_ .f32 0x00000000#32)) := by
  after_results_simp
  rfl

theorem relu1 (h : Pre m) (c : Dev nD) :
    W4 m c main_v58 = Cert.ReferenceIdeal.Read.val_main_v53 (F := Ideal) (a0 m c) (a1 m c) (a3 m c) (a4 m c) := by
  refine (relu_of (W3 m c)).trans ?_
  rw [show W3 m c (Proc.devRef .tc main_v57) = _ from layer1 m h c]
  rfl

/-- The reference's second dot_general is the plain product. -/
theorem dot1 (l : FVec Ideal S50000x128 .f32) (r : FVec Ideal S128x128 .f32) :
    Host.dotGeneral (F := Ideal) Cert.ReferenceIdeal.dot_S50000x128_S128x128_S50000x128_1_0_0_1_n_n none l r = Rgn1.prodFn l r := by
  funext i
  obtain ⟨p, q, rfl⟩ : ∃ (p : Fin 50000) (q : Fin 128), i = ix2 p q := ⟨i 0, i 1, eq_ix2 i⟩
  rw [Rgn1.prodFn_apply]
  exact Cert.Matmul.dotGeneral_plain_apply (M := 50000) (K := 128) (N := 128) none .single l r p q

theorem weight5 (c : Dev nD) : W4 m c main_arg5 = a5 m c :=
  (W4_keep m c main_arg5 (by decide)).trans <| (W3_keep m c main_arg5 (by decide)).trans <|
    (W2_of_ne m c main_arg5 (by decide)).trans (W1_keep m c main_arg5 (by decide))

theorem prod1 (h : Pre m) (c : Dev nD) :
    W5 m c main_v59 = Cert.ReferenceIdeal.Read.val_main_v54 (F := Ideal) (a0 m c) (a1 m c) (a3 m c) (a4 m c) (a5 m c) := by
  refine (W5_arr m c 2).trans ((Rgn1.arr_out (atRefs (W4 m)) c).trans ?_)
  show Rgn1.prodFn (W4 m c main_v58) (W4 m c main_arg5) = _
  rw [relu1 m h c, weight5 m c]
  exact (dot1 _ _).symm

/-! ## What the fourth stretch reads of the first, carried -/

theorem src5 (c : Dev nD) : W5 m c main_v1 = Cert.ReferenceIdeal.Read.val_main_v1 (F := Ideal) (a1 m c) :=
  (W5_of_ne m c main_v1 (by decide)).trans <| (W4_keep m c main_v1 (by decide)).trans <| (W3_keep m c main_v1 (by decide)).trans (src2 m c)
theorem dst5 (c : Dev nD) : W5 m c main_v3 = Cert.ReferenceIdeal.Read.val_main_v3 (F := Ideal) (a1 m c) :=
  (W5_of_ne m c main_v3 (by decide)).trans <| (W4_keep m c main_v3 (by decide)).trans <| (W3_keep m c main_v3 (by decide)).trans (dst2 m c)
theorem ecoef5 (c : Dev nD) : W5 m c main_v31 = Cert.ReferenceIdeal.Read.val_main_v31 (F := Ideal) (a1 m c) :=
  (W5_of_ne m c main_v31 (by decide)).trans <| (W4_keep m c main_v31 (by decide)).trans <| (W3_keep m c main_v31 (by decide)).trans (ecoef2 m c)
theorem scoef5 (c : Dev nD) : W5 m c main_v33 = Cert.ReferenceIdeal.Read.val_main_v33 (F := Ideal) (a1 m c) :=
  (W5_of_ne m c main_v33 (by decide)).trans <| (W4_keep m c main_v33 (by decide)).trans <| (W3_keep m c main_v33 (by decide)).trans (scoef2 m c)
theorem bias5 (c : Dev nD) : W5 m c main_arg6 = a6 m c :=
  (W5_of_ne m c main_arg6 (by decide)).trans <| (W4_keep m c main_arg6 (by decide)).trans <| (W3_keep m c main_arg6 (by decide)).trans <|
    (W2_of_ne m c main_arg6 (by decide)).trans (W1_keep m c main_arg6 (by decide))
theorem eli5 (c : Dev nD) : W5 m c main_arg2 = a2 m c :=
  (W5_of_ne m c main_arg2 (by decide)).trans <| (W4_keep m c main_arg2 (by decide)).trans <| (W3_keep m c main_arg2 (by decide)).trans <|
    (W2_of_ne m c main_arg2 (by decide)).trans (W1_keep m c main_arg2 (by decide))

end Cert.KernelIdeal.Stages

end
-- ==== Proof.KiGath0.lean ====
/-
  The first of the three blocks the decoder gathers out of the second layer's output (the rows the first row of label
  indices names): the kernel's is the reference's, the second layer being the reference's once its inputs are.
-/
import proofs.«152676_j68221260529797_1_alg».proof.Proof.KiStagesB

set_option maxRecDepth 16384

noncomputable section

namespace Cert.KernelIdeal.Stages

open Cert.KernelIdeal Cert.KernelIdeal.Gen Cert.KernelIdeal.Chain
open Idealize.ShloMosaic Idealize.ShloMosaic.TcCoe Idealize.ShloMosaic.ValueIdx Idealize.SL.Sem Idealize.ShloMosaic.StableHlo

variable (m : (ℓ : Loc nD τ sig) → Buf (Elt Ideal) ℓ)

set_option maxHeartbeats 16000000 in
theorem gath0 (h : Pre m) (c : Dev nD) :
    W6 m c main_v91 = Cert.ReferenceIdeal.Read.val_main_v81 (F := Ideal) (a0 m c) (a1 m c) (a2 m c) (a3 m c) (a4 m c) (a5 m c) (a6 m c) := by
  show StableHlo.after hostOps2 (W5 m c) (Proc.devRef .tc main_v91) = _
  after_results_simp
  rw [prod1 m h c, src5 m c, dst5 m c, ecoef5 m c, scoef5 m c, bias5 m c, eli5 m c]
  rw [norm_dst _ (dst_sge m h c)]
  rfl

end Cert.KernelIdeal.Stages

end
-- ==== Proof.KiGath1.lean ====
/-
  The second of the three blocks the decoder gathers out of the second layer's output (the rows the second row of label
  indices names): the kernel's is the reference's, the second layer being the reference's once its inputs are.
-/
import proofs.«152676_j68221260529797_1_alg».proof.Proof.KiStagesB

set_option maxRecDepth 16384

noncomputable section

namespace Cert.KernelIdeal.Stages

open Cert.KernelIdeal Cert.KernelIdeal.Gen Cert.KernelIdeal.Chain
open Idealize.ShloMosaic Idealize.ShloMosaic.TcCoe Idealize.ShloMosaic.ValueIdx Idealize.SL.Sem Idealize.ShloMosaic.StableHlo

variable (m : (ℓ : Loc nD τ sig) → Buf (Elt Ideal) ℓ)

set_option maxHeartbeats 16000000 in
theorem gath1 (h : Pre m) (c : Dev nD) :
    W6 m c main_v100 = Cert.ReferenceIdeal.Read.val_main_v90 (F := Ideal) (a0 m c) (a1 m c) (a2 m c) (a3 m c) (a4 m c) (a5 m c) (a6 m c) := by
  show StableHlo.after hostOps2 (W5 m c) (Proc.devRef .tc main_v100) = _
  after_results_simp
  rw [prod1 m h c, src5 m c, dst5 m c, ecoef5 m c, scoef5 m c, bias5 m c, eli5 m c]
  rw [norm_dst _ (dst_sge m h c)]
  rfl

end Cert.KernelIdeal.Stages

end
-- ==== Proof.KiGath2.lean ====
/-
  The third of the three blocks the decoder gathers out of the second layer's output (the rows the third row of label
  indices names): the kernel's is the reference's, the second layer being the reference's once its inputs are.
-/
import proofs.«152676_j68221260529797_1_alg».proof.Proof.KiStagesB

set_option maxRecDepth 16384

noncomputable section

namespace Cert.KernelIdeal.Stages

open Cert.KernelIdeal Cert.KernelIdeal.Gen Cert.KernelIdeal.Chain
open Idealize.ShloMosaic Idealize.ShloMosaic.TcCoe Idealize.ShloMosaic.ValueIdx Idealize.SL.Sem Idealize.ShloMosaic.StableHlo

variable (m : (ℓ : Loc nD τ sig) → Buf (Elt Ideal) ℓ)

set_option maxHeartbeats 16000000 in
theorem gath2 (h : Pre m) (c : Dev nD) :
    W6 m c main_v109 = Cert.ReferenceIdeal.Read.val_main_v99 (F := Ideal) (a0 m c) (a1 m c) (a2 m c) (a3 m c) (a4 m c) (a5 m c) (a6 m c) := by
  show StableHlo.after hostOps2 (W5 m c) (Proc.devRef .tc main_v109) = _
  after_results_simp
  rw [prod1 m h c, src5 m c, dst5 m c, ecoef5 m c, scoef5 m c, bias5 m c, eli5 m c]
  rw [norm_dst _ (dst_sge m h c)]
  rfl

end Cert.KernelIdeal.Stages

end
-- ==== Proof.KiCat.lean ====
/-
  The three gathered blocks joined along the feature axis. The stretch's last two operations are the join and a constant;
  what the join reads was written before them and is not written again.
-/
import proofs.«152676_j68221260529797_1_alg».proof.Proof.KiGath0
import proofs.«152676_j68221260529797_1_alg».proof.Proof.KiGath1
import proofs.«152676_j68221260529797_1_alg».proof.Proof.KiGath2

set_option maxRecDepth 16384

noncomputable section

namespace Cert.KernelIdeal.Stages

open Cert.KernelIdeal Cert.KernelIdeal.Gen Cert.KernelIdeal.Chain
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## Joined along the feature axis -/

theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The stretch's last two operations: the join, and a constant. -/
abbrev catOps : List (HloOp τ sig (Elt Ideal)) :=
  [ StableHlo.nary ![main_v91, main_v100, main_v109] main_v110 (fun u => concatenate S200000x384 1 [⟨S200000x128, u 0⟩, ⟨S200000x128, u 1⟩, ⟨S200000x128, u 2⟩] concatenates_S200000x128_S200000x128_S200000x128_S200000x384_d1),
    StableHlo.nullary main_c_23 (constantI S_ 32 0#32) ]

theorem hostOps2_split : (hostOps2 : List (HloOp τ sig (Elt Ideal))) = hostOps2.take 61 ++ catOps := rfl

theorem catOps_writes : (catOps).Forall fun op => op.writes ⊆ (([main_v110, main_c_23] : List (Ref sig .tc)).map (Proc.devRef (τ := τ) .tc)).toFinset := by
  simp only [List.Forall]
  exact ⟨by simp only [StableHlo.nary_writes, Finset.singleton_subset_iff, List.mem_toFinset]; exact List.mem_map_of_mem (by decide),
    by simp only [StableHlo.nullary_writes, Finset.singleton_subset_iff, List.mem_toFinset]; exact List.mem_map_of_mem (by decide)⟩

theorem cat_of (U : Valuation τ sig (Elt Ideal)) :
    StableHlo.after catOps U (Proc.devRef .tc main_v110)
      = concatenate S200000x384 1 [⟨S200000x128, U (Proc.devRef .tc main_v91)⟩, ⟨S200000x128, U (Proc.devRef .tc main_v100)⟩, ⟨S200000x128, U (Proc.devRef .tc main_v109)⟩]
          concatenates_S200000x128_S200000x128_S200000x128_S200000x384_d1 := by
  after_results
  rfl

theorem cat (h : Pre m) (c : Dev nD) :
    W6 m c main_v110 = Cert.ReferenceIdeal.Read.val_main_v100 (F := Ideal) (a0 m c) (a1 m c) (a2 m c) (a3 m c) (a4 m c) (a5 m c) (a6 m c) := by
  have e : W6 m c = StableHlo.after catOps (StableHlo.after (hostOps2.take 61) (W5 m c)) :=
    (congrArg (fun l => StableHlo.after l (W5 m c)) hostOps2_split).trans (after_append _ _ _)
  have k : ∀ r : Ref sig .tc, r ∉ ([main_v110, main_c_23] : List (Ref sig .tc)) →
      StableHlo.after (hostOps2.take 61) (W5 m c) (Proc.devRef .tc r) = W6 m c (Proc.devRef .tc r) := fun r hr => by
    rw [e]; exact (StableHlo.after_of_writes_sub catOps _ catOps_writes hr).symm
  show W6 m c (Proc.devRef .tc main_v110) = _
  rw [e, cat_of, k main_v91 (by decide), k main_v100 (by decide), k main_v109 (by decide)]
  rw [show W6 m c (Proc.devRef .tc main_v91) = _ from gath0 m h c, show W6 m c (Proc.devRef .tc main_v100) = _ from gath1 m h c,
    show W6 m c (Proc.devRef .tc main_v109) = _ from gath2 m h c]
  rfl

end Cert.KernelIdeal.Stages

end
-- ==== Proof.KiProd2.lean ====
/-
  Region 2's output array after the region, at the exact extended reals: the plain matrix product of the two operand arrays
  as the region finds them. Each grid point t writes back rows 2000·t … 2000·t + 1999 of that product (its block of rows of
  the left operand times the whole right operand; narrowing to bf16 is the identity here), and the 100 blocks tile the array.
-/
import proofs.«152676_j68221260529797_1_alg».proof.Proof.KiRegion2
import proofs.«152676_j68221260529797_1_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Rgn2

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The plain product of a 200000×384 array by a 384×128 array, index by index. -/
def prodFn (l : FVec Ideal S200000x384 .f32) (r : FVec Ideal S384x128 .f32) : FVec Ideal S200000x128 .f32 :=
  fun i => ∑ k : Fin 384, l (ix2 (i 0) k) * r (ix2 k (i 1))

theorem hz : (![0, 0] : Fin 2 → Nat) = fun _ => 0 := funext fun a => by fin_cases a <;> rfl

/-- The stored value at (p, q): the sum over k of the left block at (p, k) times the right operand at (k, q). -/
theorem pay_apply (x0 : Vec Ideal S2000x384 .f32) (x1 : Vec Ideal S384x128 .f32) (p : Fin 2000) (q : Fin 128) :
    k2_pay1 (F := Ideal) x0 x1 (ix2 p q) = ∑ k : Fin 384, x0 (ix2 p k) * x1 (ix2 k q) := by
  unfold k2_pay1
  try rw [shapeCast_self]
  try rw [shapeCast_self]
  exact Cert.Matmul.matmul_plain_apply (M := 2000) (K := 384) (N := 128) (φ₁ := .bf16) (φ₂ := .bf16) none x0 x1 p q

/-- The printed index maps over the grid: the left operand's and the output's blocks are block t of rows, the right operand's
    is the whole array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem t_lt (t : Fin cfg2.N) : t.val < 100 := by have h := t.isLt; have hN : cfg2.N = 100 := N_2; omega

theorem prodFn_apply (l : FVec Ideal S200000x384 .f32) (r : FVec Ideal S384x128 .f32) (p : Fin 200000) (q : Fin 128) :
    prodFn l r (ix2 p q) = ∑ k : Fin 384, l (ix2 p k) * r (ix2 k q) := rfl

/-- The left operand's staged block at (p, k) is the array at row 2000·t + p, column k. -/
theorem lhs_blk (c : Dev nD) (t : Fin cfg2.N) (p : Fin 2000) (k : Fin 384) (r : Fin 200000) (hr : r.val = t.val * 2000 + p.val) :
    iblk V c 0 t (ix2 p k) = V c main_v110 (ix2 r k) := by
  obtain ⟨e0, e1, -, -, -, -⟩ := idx_facts t
  show V c main_v110 (((cfg2.win 0).blk t).view.emb (ix2 p k)) = V c main_v110 (ix2 r k)
  refine congrArg _ ?_
  funext a; apply Fin.ext
  match a with
  | ⟨0, _⟩ => show win2_0.index t (0 : Fin 2) * 2000 + 1 * p.val = r.val; omega
  | ⟨1, _⟩ => show win2_0.index t (1 : Fin 2) * 384 + 1 * k.val = k.val; omega

/-- The right operand's staged block is the whole right operand. -/
theorem rhs_blk (c : Dev nD) (t : Fin cfg2.N) (k : Fin 384) (q : Fin 128) :
    iblk V c 1 t (ix2 k q) = V c main_v111 (ix2 k q) := by
  obtain ⟨-, -, e2, e3, -, -⟩ := idx_facts t
  show V c main_v111 (((cfg2.win 1).blk t).view.emb (ix2 k q)) = V c main_v111 (ix2 k q)
  refine congrArg _ ?_
  funext a; apply Fin.ext
  match a with
  | ⟨0, _⟩ => show win2_1.index t (0 : Fin 2) * 384 + 1 * k.val = k.val; omega
  | ⟨1, _⟩ => show win2_1.index t (1 : Fin 2) * 128 + 1 * q.val = q.val; omega

/-- What point t writes back is block t of the product. -/
theorem flushed_eq (c : Dev nD) (t : Fin cfg2.N) :
    (dat V c).flushed 2 t = ((cfg2.win 2).blk t).view.read (Elt Ideal) (prodFn (V c main_v110) (V c main_v111)) := by
  show (cfg2.win 2).cut (grid2.coords t) ((dat V c).after 2 t) = _
  rw [after_out]
  unfold out
  rw [View.canon_unit_zero hz]
  simp only [View.ld_unit_zero (S := S2000x384) hz, View.ld_unit_zero (S := S384x128) hz]
  obtain ⟨-, -, -, -, e4, e5⟩ := idx_facts t
  have ht := t_lt t
  funext j
  obtain ⟨p, q, rfl⟩ : ∃ (p : Fin 2000) (q : Fin 128), j = ix2 p q := ⟨j 0, j 1, eq_ix2 j⟩
  have hr : t.val * 2000 + p.val < 200000 := by have := p.isLt; omega
  show k2_pay1 (F := Ideal) (iblk V c 0 t) (iblk V c 1 t) (ix2 p q)
    = prodFn (V c main_v110) (V c main_v111) (((cfg2.win 2).blk t).view.emb (ix2 p q))
  rw [pay_apply]
  have hemb : ((cfg2.win 2).blk t).view.emb (ix2 p q) = ix2 (⟨t.val * 2000 + p.val, hr⟩ : Fin 200000) q := by
    funext a; apply Fin.ext
    match a with
    | ⟨0, _⟩ => show win2_2.index t (0 : Fin 2) * 2000 + 1 * p.val = t.val * 2000 + p.val; omega
    | ⟨1, _⟩ => show win2_2.index t (1 : Fin 2) * 128 + 1 * q.val = q.val; omega
  rw [hemb, prodFn_apply]
  refine Finset.sum_congr rfl fun k _ => ?_
  rw [lhs_blk V c t p k ⟨t.val * 2000 + p.val, hr⟩ rfl, rhs_blk V c t k q]

/-- An index of the array is in point t's block iff each coordinate is in the block's range on its axis. -/
theorem mem_blk (t : Fin cfg2.N) (i : S200000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v112).slice (win2_2.rect t)).set ↔ _
  rw [View.set_slice_whole, Rect.mem_set_unit]
  exact Iff.rfl

/-- Every row of the array lies in the block of the point numbered by that row's quotient by 2000. -/
theorem blocks_cover (i : S200000x128.Idx) : ∃ t : Fin cfg2.N, (cfg2.win 2).flush t = true ∧ i ∈ ((cfg2.win 2).blk t).view.set := by
  have hi0 : (i 0).val < 200000 := (i 0).isLt
  have hi1 : (i 1).val < 128 := (i 1).isLt
  have hN : cfg2.N = 100 := N_2
  let t : Fin cfg2.N := ⟨(i 0).val / 2000, by rw [hN]; omega⟩
  obtain ⟨-, -, -, -, e4, e5⟩ := idx_facts t
  have e4' : win2_2.index t (0 : Fin 2) = (i 0).val / 2000 := e4
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The output array after the region is the product of the two operand arrays as the region found them. -/
theorem arr_out (c : Dev nD) : (dat V c).arrAt 2 cfg2.N = prodFn (V c main_v110) (V c main_v111) :=
  (dat V c).arrAt_eq_of_cover 2 _ (fun t _ => flushed_eq V c t) blocks_cover

end Cert.KernelIdeal.Rgn2

end
-- ==== Proof.KiDecode.lean ====
/-
  The decoder's last step, as algebra on arrays. The kernel multiplies the 200000×384 array of gathered features by the
  384×1 projection padded with 127 zero columns, keeps column 0 of the product and adds the bias; the reference multiplies by
  the projection itself, adds the bias and drops the unit axis. Row by row both are the sum over k of the features at (row, k)
  times the projection at (k, 0), plus the bias.
-/
import proofs.«152676_j68221260529797_1_alg».proof.Proof.KiProd2
import proofs.«152676_j68221260529797_1_alg».proof.Proof.Gen.ReferenceIdeal.Read
import Idealize.ShloMosaic.Lib.KernelVsHost
import Idealize.ShloMosaic.Lib.Pipeline.Value
import Idealize.ShloMosaic.Lib.ValueIdx

set_option maxRecDepth 16384

noncomputable section

namespace Cert.KernelIdeal.Decode

open Cert.KernelIdeal Cert.KernelIdeal.Facts₀
open Idealize.ShloMosaic Idealize.ShloMosaic.ValueIdx

/-- The projection padded with zero columns to 128 columns. -/
def padWt (x7 : FVec Ideal S384x1 .f32) : FVec Ideal S384x128 .f32 :=
  pad S384x128 ![0, 0] ![0, 127] ![0, 0] x7 (sitofp (F := Ideal) .f32 (constantI S_ 32 0#32)) pads_S384x1_S384x128_000_01270 h_S_

/-- Column 0 of the padded projection is the projection. -/
theorem padWt_col0 (x7 : FVec Ideal S384x1 .f32) (k : Fin 384) : padWt x7 (ix2 k (0 : Fin 128)) = x7 (ix2 k (0 : Fin 1)) := by
  unfold padWt
  exact pad_apply_of_inside ![0, 0] ![0, 127] ![0, 0] x7 _ pads_S384x1_S384x128_000_01270 h_S_ (ix2 k 0) (ix2 k 0) (fun a => match a with
    | ⟨0, _⟩ => by show k.val = 0 + k.val * (0 + 1); omega
    | ⟨1, _⟩ => by show 0 = 0 + 0 * (0 + 1); omega)

/-- The kernel's last host operations on the third product Y and the bias: column 0 of Y as a vector, plus the bias. -/
def kdecode (Y : FVec Ideal S200000x128 .f32) (x8 : FVec Ideal S1 .f32) : FVec Ideal S200000 .f32 :=
  addf (shapeCast S200000 (extractStridedSlice S200000x1 ![0, 0] Y slices_S200000x128_S200000x1_0_0) shapeCasts_S200000x1_S200000)
    (broadcastInDim S200000 ![] bcast_S_S200000 (shapeCast S_ x8 shapeCasts_S1_S_))

theorem kdecode_apply (Y : FVec Ideal S200000x128 .f32) (x8 : FVec Ideal S1 .f32) (r : Fin 200000) :
    kdecode Y x8 (ix1 r) = Y (ix2 r (0 : Fin 128)) + x8 (ix1 (0 : Fin 1)) := by
  have h1 : shapeCast S200000 (extractStridedSlice S200000x1 ![0, 0] Y slices_S200000x128_S200000x1_0_0) shapeCasts_S200000x1_S200000 (ix1 r)
      = Y (ix2 r (0 : Fin 128)) := by
    rw [shapeCast_apply _ shapeCasts_S200000x1_S200000 (ix1 r) (ix2 r (0 : Fin 1))
      (by rw [Shape.rowMajor_val_two, Shape.rowMajor_val_one]; show r.val * 1 + 0 = r.val; omega)]
    exact extractStridedSlice_apply ![0, 0] Y slices_S200000x128_S200000x1_0_0 (ix2 r (0 : Fin 1)) (ix2 r (0 : Fin 128)) (fun a => match a with
      | ⟨0, _⟩ => by show r.val = 0 + r.val; omega
      | ⟨1, _⟩ => by show 0 = 0 + 0; omega)
  have h2 : broadcastInDim S200000 ![] bcast_S_S200000 (shapeCast S_ x8 shapeCasts_S1_S_) (ix1 r) = x8 (ix1 (0 : Fin 1)) := by
    rw [broadcastInDim_apply ![] bcast_S_S200000 _ (ix1 r) ix0 (fun a => a.elim0)]
    exact shapeCast_apply x8 shapeCasts_S1_S_ ix0 (ix1 (0 : Fin 1))
      (by rw [Shape.rowMajor_val_one]; have h := (S_.rowMajor ix0).isLt; have e : S_.numel = 1 := by decide
          show 0 = (S_.rowMajor ix0).val; omega)
  show FloatOps.addf (F := Ideal) _ _ = _
  rw [h1, h2]
  rfl

/-- The reference's result at a row: the sum over k of its gathered features at (row, k) times the projection at (k, 0),
    plus the bias. -/
theorem ref_apply (x0 : FVec Ideal S50000x256 .f32) (x1 : IVec S2x1600000 32) (x2 : IVec S3x200000 32) (x3 : FVec Ideal S256x128 .f32)
    (x4 : FVec Ideal S128 .f32) (x5 : FVec Ideal S128x128 .f32) (x6 : FVec Ideal S128 .f32) (x7 : FVec Ideal S384x1 .f32)
    (x8 : FVec Ideal S1 .f32) (r : Fin 200000) :
    Cert.ReferenceIdeal.Read.val_main_v105 (F := Ideal) x0 x1 x2 x3 x4 x5 x6 x7 x8 (ix1 r)
      = (∑ k : Fin 384, Cert.ReferenceIdeal.Read.val_main_v100 (F := Ideal) x0 x1 x2 x3 x4 x5 x6 (ix2 r k) * x7 (ix2 k (0 : Fin 1))) + x8 (ix1 (0 : Fin 1)) := by
  rw [Cert.ReferenceIdeal.Read.val_main_v105_apply, Cert.ReferenceIdeal.Read.val_main_v104_apply, Cert.ReferenceIdeal.Read.val_main_v101_apply, Cert.ReferenceIdeal.Read.val_main_v103_apply,
    Cert.ReferenceIdeal.Read.val_main_v102_apply]
  have e1 : ∀ k : Fin 384, Cert.ReferenceIdeal.Read.lidx_main_v101 (Cert.ReferenceIdeal.Read.idx_main_v105 (ix1 r)) k = ix2 r k := fun k => funext fun a => Fin.ext (by
    match a with
    | ⟨0, _⟩ => show r.val / 1 = r.val; omega
    | ⟨1, _⟩ => rfl)
  have e2 : ∀ k : Fin 384, Cert.ReferenceIdeal.Read.ridx_main_v101 (Cert.ReferenceIdeal.Read.idx_main_v105 (ix1 r)) k = ix2 k (0 : Fin 1) := fun k => funext fun a => Fin.ext (by
    match a with
    | ⟨0, _⟩ => rfl
    | ⟨1, _⟩ => rfl)
  have e3 : Cert.ReferenceIdeal.Read.idx_main_v102 (Cert.ReferenceIdeal.Read.idx_main_v103 (Cert.ReferenceIdeal.Read.idx_main_v105 (ix1 r))) = ix1 (0 : Fin 1) := funext fun a => Fin.ext (by
    match a with
    | ⟨0, _⟩ => rfl)
  simp only [e1, e2, e3]
  rfl

end Cert.KernelIdeal.Decode

end
-- ==== Proof.KiTail.lean ====
/-
  The end of the idealized kernel's run against the reference's: the padded projection, the third matrix product, the
  decoder's last operations, and the result, equal to the reference's at every row.
-/
import proofs.«152676_j68221260529797_1_alg».proof.Proof.KiCat
import proofs.«152676_j68221260529797_1_alg».proof.Proof.KiDecode

set_option maxRecDepth 16384

noncomputable section

namespace Cert.KernelIdeal.Stages

open Cert.KernelIdeal Cert.KernelIdeal.Gen Cert.KernelIdeal.Chain
open Cert.KernelIdeal.Decode
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The padded projection -/

theorem zero6 (c : Dev nD) : W6 m c main_c_23 = constantI S_ 32 0#32 := by
  show StableHlo.after hostOps2 (W5 m c) (Proc.devRef .tc main_c_23) = _
  after_results_simp <;> rfl

theorem proj6 (c : Dev nD) : W6 m c main_arg7 = a7 m c :=
  (W6_keep m c main_arg7 (by decide)).trans <| (W5_of_ne m c main_arg7 (by decide)).trans <| (W4_keep m c main_arg7 (by decide)).trans <|
    (W3_keep m c main_arg7 (by decide)).trans <| (W2_of_ne m c main_arg7 (by decide)).trans (W1_keep m c main_arg7 (by decide))

/-- The padding's two operations, from any contents. -/
theorem pad_of (U : Valuation τ sig (Elt Ideal)) :
    StableHlo.after hostOps2_1 U (Proc.devRef .tc main_v111)
      = pad S384x128 ![0, 0] ![0, 127] ![0, 0] (U (Proc.devRef .tc main_arg7))
          (sitofp (F := Ideal) .f32 (U (Proc.devRef .tc main_c_23) : IVec S_ 32)) pads_S384x1_S384x128_000_01270 h_S_ := by
  after_results_simp
  rfl

theorem padW (c : Dev nD) : W7 m c main_v111 = padWt (a7 m c) := by
  refine (pad_of (W6 m c)).trans ?_
  rw [show W6 m c (Proc.devRef .tc main_arg7) = _ from proj6 m c, show W6 m c (Proc.devRef .tc main_c_23) = _ from zero6 m c]
  rfl

/-! ## The third product -/

theorem feat7 (h : Pre m) (c : Dev nD) :
    W7 m c main_v110 = Cert.ReferenceIdeal.Read.val_main_v100 (F := Ideal) (a0 m c) (a1 m c) (a2 m c) (a3 m c) (a4 m c) (a5 m c) (a6 m c) :=
  (W7_keep m c main_v110 (by decide)).trans (cat m h c)

theorem prod2 (h : Pre m) (c : Dev nD) :
    W8 m c main_v112 = Rgn2.prodFn (Cert.ReferenceIdeal.Read.val_main_v100 (F := Ideal) (a0 m c) (a1 m c) (a2 m c) (a3 m c) (a4 m c) (a5 m c) (a6 m c)) (padWt (a7 m c)) := by
  refine (W8_arr m c 2).trans ((Rgn2.arr_out (atRefs (W7 m)) c).trans ?_)
  show Rgn2.prodFn (W7 m c main_v110) (W7 m c main_v111) = _
  rw [feat7 m h c, padW m c]

theorem bias8 (c : Dev nD) : W8 m c main_arg8 = a8 m c :=
  (W8_of_ne m c main_arg8 (by decide)).trans <| (W7_keep m c main_arg8 (by decide)).trans <| (W6_keep m c main_arg8 (by decide)).trans <|
    (W5_of_ne m c main_arg8 (by decide)).trans <| (W4_keep m c main_arg8 (by decide)).trans <| (W3_keep m c main_arg8 (by decide)).trans <|
    (W2_of_ne m c main_arg8 (by decide)).trans (W1_keep m c main_arg8 (by decide))

/-! ## The result -/

/-- The last stretch's five operations, from any contents. -/
theorem tail_of (U : Valuation τ sig (Elt Ideal)) :
    StableHlo.after hostOps3 U (Proc.devRef .tc main_v117) = kdecode (U (Proc.devRef .tc main_v112)) (U (Proc.devRef .tc main_arg8)) := by
  after_results_simp
  rfl

/-- Under the precondition the idealized kernel's result array is the reference's. -/
theorem result (h : Pre m) (c : Dev nD) :
    W9 m c main_v117 = Cert.ReferenceIdeal.Read.val_main_v105 (F := Ideal) (a0 m c) (a1 m c) (a2 m c) (a3 m c) (a4 m c) (a5 m c) (a6 m c) (a7 m c) (a8 m c) := by
  refine (tail_of (W8 m c)).trans ?_
  rw [show W8 m c (Proc.devRef .tc main_v112) = _ from prod2 m h c, show W8 m c (Proc.devRef .tc main_arg8) = _ from bias8 m c]
  funext i
  obtain ⟨r, rfl⟩ : ∃ r : Fin 200000, i = ix1 r := ⟨i 0, eq_ix1 i⟩
  rw [kdecode_apply, Rgn2.prodFn_apply, ref_apply]
  simp only [padWt_col0]

end Cert.KernelIdeal.Stages

end
-- ==== Proof.lean ====
/-
  A two-layer graph convolution followed by a link decoder. Both programs compute, for 50000 nodes with 256 features and
  1600000 edges (src, dst): the degree-normalisation coefficients from dst; twice, a linear map followed by "scatter-add over
  dst of the gathered src rows times the edge coefficient, plus the self term, plus the bias" (a relu between the layers);
  then, for 200000 label triples, the three gathered rows of the second layer's output joined into 384 features and projected
  to one number, plus a bias.

  The kernel runs the three linear maps as matrix-product regions (the operands narrowed to bf16, which is the identity over
  the exact extended reals; the last projection padded with 127 zero columns, of whose product only column 0 is kept) and
  everything else as host operations that are, operation for operation, the reference's — with one difference: before it
  scatters, the kernel adds 50000 to negative destination indices, where the reference's segment sum drops them. The
  precondition says the destination indices are nonnegative (below zero the reference's own segment ids are out of range),
  and under it the two index arrays coincide. So stage by stage the kernel's arrays are the reference's: each region leaves
  the plain product of its operands, which is what the reference's dot_general computes; each host stretch applies the
  reference's operations to the reference's values; and the decoder's tail is, row by row, the sum over k of the features at
  (row, k) times the projection at (k, 0), plus the bias, on both sides.

  The frames: each kernel program is nine segments — six host stretches and three regions — run by the launch theorem for
  several regions, each region's record built from its body's run over whole staging buffers; the reference is its generated
  run with the result dropped. The idealization rewrote nothing, so there is nothing to preserve.
-/
import proofs.«152676_j68221260529797_1_alg».proof.Defs
import proofs.«152676_j68221260529797_1_alg».proof.Proof.Gen.Kernel
import proofs.«152676_j68221260529797_1_alg».proof.Proof.Gen.KernelIdeal
import proofs.«152676_j68221260529797_1_alg».proof.Proof.Gen.ReferenceIdeal
import proofs.«152676_j68221260529797_1_alg».proof.Proof.Gen.ReferenceIdeal.Run
import proofs.«152676_j68221260529797_1_alg».proof.Proof.Gen.ReferenceIdeal.Read
import proofs.«152676_j68221260529797_1_alg».proof.Proof.Gen.Pre_finite_inputs
import proofs.«152676_j68221260529797_1_alg».proof.Proof.KbRun
import proofs.«152676_j68221260529797_1_alg».proof.Proof.KiRun
import proofs.«152676_j68221260529797_1_alg».proof.Proof.KiTail
import Idealize.ShloMosaic.Adequacy
import Idealize.ShloMosaic.Init

noncomputable section

namespace Cert.Proof

open Idealize.ShloMosaic Idealize.ShloMosaic.TcCoe Idealize.SL.Sem

/-- The word-level kernel runs to the end with its arguments unchanged. -/
theorem frame_k : Cert.frame_Kernel := fun m ρ _ => Cert.Kernel.Chain.frame m ρ

/-- So does the idealized kernel. -/
theorem frame_ki : Cert.frame_KernelIdeal := fun m ρ _ => Cert.KernelIdeal.Chain.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, under the precondition, both idealized programs end with the reference's
    last stage of the arguments as their result. -/
theorem algebraic : Cert.algebraic_KernelIdeal_ReferenceIdeal := by
  intro m ρ m' ρ' hpre hagree
  refine ⟨fun c => Cert.ReferenceIdeal.Read.val_main_v105 (F := Ideal)
      (Cert.KernelIdeal.Stages.a0 m c) (Cert.KernelIdeal.Stages.a1 m c) (Cert.KernelIdeal.Stages.a2 m c) (Cert.KernelIdeal.Stages.a3 m c)
      (Cert.KernelIdeal.Stages.a4 m c) (Cert.KernelIdeal.Stages.a5 m c) (Cert.KernelIdeal.Stages.a6 m c) (Cert.KernelIdeal.Stages.a7 m c)
      (Cert.KernelIdeal.Stages.a8 m c), ?_, ?_⟩
  · exact (θ_run Cert.KernelIdeal.defs _ _).mono (fun r h c =>
      ⟨(h c _ (Cert.KernelIdeal.Chain.mem_uc Cert.KernelIdeal.main_v117 (by decide))).trans (Cert.KernelIdeal.Stages.result m hpre c),
       (h c _ (Cert.KernelIdeal.Chain.mem_uc Cert.KernelIdeal.main_arg0 (by decide))).trans (Cert.KernelIdeal.Chain.W9_main_arg0 m c),
       (h c _ (Cert.KernelIdeal.Chain.mem_uc Cert.KernelIdeal.main_arg1 (by decide))).trans (Cert.KernelIdeal.Chain.W9_main_arg1 m c),
       (h c _ (Cert.KernelIdeal.Chain.mem_uc Cert.KernelIdeal.main_arg2 (by decide))).trans (Cert.KernelIdeal.Chain.W9_main_arg2 m c),
       (h c _ (Cert.KernelIdeal.Chain.mem_uc Cert.KernelIdeal.main_arg3 (by decide))).trans (Cert.KernelIdeal.Chain.W9_main_arg3 m c),
       (h c _ (Cert.KernelIdeal.Chain.mem_uc Cert.KernelIdeal.main_arg4 (by decide))).trans (Cert.KernelIdeal.Chain.W9_main_arg4 m c),
       (h c _ (Cert.KernelIdeal.Chain.mem_uc Cert.KernelIdeal.main_arg5 (by decide))).trans (Cert.KernelIdeal.Chain.W9_main_arg5 m c),
       (h c _ (Cert.KernelIdeal.Chain.mem_uc Cert.KernelIdeal.main_arg6 (by decide))).trans (Cert.KernelIdeal.Chain.W9_main_arg6 m c),
       (h c _ (Cert.KernelIdeal.Chain.mem_uc Cert.KernelIdeal.main_arg7 (by decide))).trans (Cert.KernelIdeal.Chain.W9_main_arg7 m c),
       (h c _ (Cert.KernelIdeal.Chain.mem_uc Cert.KernelIdeal.main_arg8 (by decide))).trans (Cert.KernelIdeal.Chain.W9_main_arg8 m c)⟩)
      (Cert.KernelIdeal.Chain.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v105_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
